-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_

variable [Facts]

def fn_part1 {F : FTy → Type} [FloatOps F] (main_v10 : IVec S_ 1) (main_v15 : IVec S600000 1) (main_c_5 : IVec S_ 1) : IVec S_ 1 :=
  let main_v16 : IVec S_ 1 := (fun x v => Host.reduce IntOp.andi x v reducesTo_S600000_S_d0 h_S_) main_v15 main_c_5
  let main_v17 : IVec S_ 1 := andi main_v10 main_v16
  main_v17

def fn {F : FTy → Type} [FloatOps F] (main_arg0 : FVec F S50000x128 .f32) (main_arg1 : IVec S600000 32) (main_arg2 : IVec S600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_c_0 : IVec S_ 32 := constantI S_ 32 0#32
  let main_v4 : IVec S600000 32 := broadcastInDim S600000 ![] bcast_S_S600000 main_c_0
  let main_v5 : IVec S600000 1 := cmpi .sge main_arg1 main_v4
  let main_c_1 : IVec S_ 32 := constantI S_ 32 50000#32
  let main_v6 : IVec S600000 32 := broadcastInDim S600000 ![] bcast_S_S600000 main_c_1
  let main_v7 : IVec S600000 1 := cmpi .slt main_arg1 main_v6
  let main_v8 : IVec S600000 1 := andi main_v5 main_v7
  let main_c_2 : IVec S_ 1 := constantI S_ 1 1#1
  let main_v9 : IVec S_ 1 := (fun x v => Host.reduce IntOp.andi x v reducesTo_S600000_S_d0 h_S_) main_v8 main_c_2
  let main_v10 : IVec S_ 1 := andi main_v3 main_v9
  let main_c_3 : IVec S_ 32 := constantI S_ 32 0#32
  let main_v11 : IVec S600000 32 := broadcastInDim S600000 ![] bcast_S_S600000 main_c_3
  let main_v12 : IVec S600000 1 := cmpi .sge main_arg2 main_v11
  let main_c_4 : IVec S_ 32 := constantI S_ 32 50000#32
  let main_v13 : IVec S600000 32 := broadcastInDim S600000 ![] bcast_S_S600000 main_c_4
  let main_v14 : IVec S600000 1 := cmpi .slt main_arg2 main_v13
  let main_v15 : IVec S600000 1 := andi main_v12 main_v14
  let main_c_5 : IVec S_ 1 := constantI S_ 1 1#1
  fn_part1 (F := F) main_v10 main_v15 main_c_5
-- ==== Kernel.lean ====
abbrev S50000x128 : Shape := ⟨2, ![50000, 128]⟩
abbrev S600000 : Shape := ⟨1, ![600000]⟩
abbrev S_ : Shape := ⟨0, ![]⟩
abbrev S2112 : Shape := ⟨1, ![2112]⟩
abbrev S602112 : Shape := ⟨1, ![602112]⟩
abbrev S1x602112 : Shape := ⟨2, ![1, 602112]⟩
abbrev S53248x128 : Shape := ⟨2, ![53248, 128]⟩
abbrev S602112x128 : Shape := ⟨2, ![602112, 128]⟩
abbrev S1x2048 : Shape := ⟨2, ![1, 2048]⟩
abbrev S2048x128 : Shape := ⟨2, ![2048, 128]⟩
abbrev S2048 : Shape := ⟨1, ![2048]⟩
abbrev S1x1024 : Shape := ⟨2, ![1, 1024]⟩
abbrev S1024x128 : Shape := ⟨2, ![1024, 128]⟩
abbrev S2048x1 : Shape := ⟨2, ![2048, 1]⟩
abbrev S2048x1024 : Shape := ⟨2, ![2048, 1024]⟩
abbrev S1x4096 : Shape := ⟨2, ![1, 4096]⟩
abbrev S4096x128 : Shape := ⟨2, ![4096, 128]⟩
abbrev S13312x128 : Shape := ⟨2, ![13312, 128]⟩
abbrev S4096 : Shape := ⟨1, ![4096]⟩
abbrev S1024x1 : Shape := ⟨2, ![1024, 1]⟩
abbrev S1024x4096 : Shape := ⟨2, ![1024, 4096]⟩

abbrev nBuf : Space → Nat
  | .hbm => 19
  | .vmem => 23
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S_, .i32⟩
  | .hbm, ⟨4, _⟩ => ⟨S2112, .i32⟩
  | .hbm, ⟨5, _⟩ => ⟨S602112, .i32⟩
  | .hbm, ⟨6, _⟩ => ⟨S602112, .i32⟩
  | .hbm, ⟨7, _⟩ => ⟨S1x602112, .i32⟩
  | .hbm, ⟨8, _⟩ => ⟨S1x602112, .i32⟩
  | .hbm, ⟨9, _⟩ => ⟨S50000x128, .bf16⟩
  | .hbm, ⟨10, _⟩ => ⟨S_, .i32⟩
  | .hbm, ⟨11, _⟩ => ⟨S_, .bf16⟩
  | .hbm, ⟨12, _⟩ => ⟨S53248x128, .bf16⟩
  | .hbm, ⟨13, _⟩ => ⟨S602112x128, .bf16⟩
  | .hbm, ⟨14, _⟩ => ⟨S602112x128, .bf16⟩
  | .hbm, ⟨15, _⟩ => ⟨S53248x128, .f32⟩
  | .hbm, ⟨16, _⟩ => ⟨S50000x128, .f32⟩
  | .hbm, ⟨17, _⟩ => ⟨S53248x128, .f32⟩
  | .hbm, ⟨18, _⟩ => ⟨S50000x128, .f32⟩
  | .local _ .vmem, ⟨0, _⟩ => ⟨S1x2048, .i32⟩
  | .local _ .vmem, ⟨1, _⟩ => ⟨S1x2048, .i32⟩
  | .local _ .vmem, ⟨2, _⟩ => ⟨S1x2048, .i32⟩
  | .local _ .vmem, ⟨3, _⟩ => ⟨S1x2048, .i32⟩
  | .local _ .vmem, ⟨4, _⟩ => ⟨S53248x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .f32⟩
  | .local _ .vmem, ⟨10, _⟩ => ⟨S2048x128, .f32⟩
  | .local _ .vmem, ⟨11, _⟩ => ⟨S1x4096, .i32⟩
  | .local _ .vmem, ⟨12, _⟩ => ⟨S1x4096, .i32⟩
  | .local _ .vmem, ⟨13, _⟩ => ⟨S4096x128, .bf16⟩
  | .local _ .vmem, ⟨14, _⟩ => ⟨S4096x128, .bf16⟩
  | .local _ .vmem, ⟨15, _⟩ => ⟨S13312x128, .f32⟩
  | .local _ .vmem, ⟨16, _⟩ => ⟨S13312x128, .f32⟩
  | .local _ .vmem, ⟨17, _⟩ => ⟨S1x4096, .i32⟩
  | .local _ .vmem, ⟨18, _⟩ => ⟨S1x4096, .i32⟩
  | .local _ .vmem, ⟨19, _⟩ => ⟨S4096x128, .bf16⟩
  | .local _ .vmem, ⟨20, _⟩ => ⟨S4096x128, .bf16⟩
  | .local _ .vmem, ⟨21, _⟩ => ⟨S13312x128, .f32⟩
  | .local _ .vmem, ⟨22, _⟩ => ⟨S13312x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call0_v0 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20

abbrev nD : Nat := 1
abbrev τ : Topo := Topo.v7x

variable {F : FTy → Type} [FloatOps F]

abbrev grid0 : Pipeline.Grid := ⟨1, ![294], ![false]⟩

@[reducible] def k0_t1_loop : Scf.Loop 32 :=
  let c0_i32 : BitVec 32 := 0#32
  let c52_i32 : BitVec 32 := 52#32
  let v13 : BitVec 32 := Scalar.addi c0_i32 c52_i32
  let c1_i32 : BitVec 32 := 1#32
  ⟨c0_i32, v13, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c1024_i32 : BitVec 32 := 1024#32
  let v20 : BitVec 32 := Scalar.muli arg8 c1024_i32
  v20
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c1024_i32 : BitVec 32 := 1024#32
  let v20 : BitVec 32 := Scalar.muli arg8 c1024_i32
  let v21 : BitVec 32 := v20
  let v22 : Index := Scalar.indexCast v21
  let c0_17 : Index := 0#32
  ![v22.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S53248x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 147], ![false, false]⟩

@[reducible] def k1_t1_loop : Scf.Loop 32 :=
  let c0_i32_4 : BitVec 32 := 0#32
  let c13_i32 : BitVec 32 := 13#32
  let v9 : BitVec 32 := Scalar.addi c0_i32_4 c13_i32
  let c1_i32 : BitVec 32 := 1#32
  ⟨c0_i32_4, v9, c1_i32⟩
def k1_mult1 (k1_t1 : Fin k1_t1_loop.trips) : BitVec 32 :=
  let c0_i32_4 : BitVec 32 := 0#32
  let c1_i32 : BitVec 32 := 1#32
  let arg5 : BitVec 32 := Scf.iv c0_i32_4 c1_i32 k1_t1
  let c1024_i32 : BitVec 32 := 1024#32
  let v10 : BitVec 32 := Scalar.muli arg5 c1024_i32
  v10
def k1_off1 (k1_t1 : Fin k1_t1_loop.trips) : Fin 2 → Nat :=
  let c0_i32_4 : BitVec 32 := 0#32
  let c1_i32 : BitVec 32 := 1#32
  let arg5 : BitVec 32 := Scf.iv c0_i32_4 c1_i32 k1_t1
  let c1024_i32 : BitVec 32 := 1024#32
  let v10 : BitVec 32 := Scalar.muli arg5 c1024_i32
  let v11 : BitVec 32 := v10
  let v23 : Index := Scalar.indexCast v11
  let c0_6 : Index := 0#32
  ![v23.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S13312x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![4, 147], ![false, false]⟩

@[reducible] def k2_t1_loop : Scf.Loop 32 :=
  let c0_i32_4 : BitVec 32 := 0#32
  let c13_i32 : BitVec 32 := 13#32
  let v9 : BitVec 32 := Scalar.addi c0_i32_4 c13_i32
  let c1_i32 : BitVec 32 := 1#32
  ⟨c0_i32_4, v9, c1_i32⟩
def k2_mult1 (k2_t1 : Fin k2_t1_loop.trips) : BitVec 32 :=
  let c0_i32_4 : BitVec 32 := 0#32
  let c1_i32 : BitVec 32 := 1#32
  let arg5 : BitVec 32 := Scf.iv c0_i32_4 c1_i32 k2_t1
  let c1024_i32 : BitVec 32 := 1024#32
  let v10 : BitVec 32 := Scalar.muli arg5 c1024_i32
  v10
def k2_off1 (k2_t1 : Fin k2_t1_loop.trips) : Fin 2 → Nat :=
  let c0_i32_4 : BitVec 32 := 0#32
  let c1_i32 : BitVec 32 := 1#32
  let arg5 : BitVec 32 := Scf.iv c0_i32_4 c1_i32 k2_t1
  let c1024_i32 : BitVec 32 := 1024#32
  let v10 : BitVec 32 := Scalar.muli arg5 c1024_i32
  let v11 : BitVec 32 := v10
  let v23 : Index := Scalar.indexCast v11
  let c0_6 : Index := 0#32
  ![v23.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x4096 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S4096x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S13312x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  bcast_S_S2112 : S_.BroadcastsInDim S2112 (![] : Fin 0 → Fin S2112.rank)
  concatenates_S600000_S2112_S602112_d0 : Shape.Concatenates [S600000, S2112] S602112 0
  shapeCasts_S602112_S1x602112 : S602112.ShapeCasts S1x602112
  bitsLt_bf16_f32 : FTy.bits .bf16 < FTy.bits .f32
  pads_S50000x128_S53248x128_032480_000 : S50000x128.Pads (![0, 0] : Fin 2 → Nat) ![3248, 0] ![0, 0] S53248x128
  h_S_ : 0 < S_.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x2048_S1x2048_0_0 : ∀ a, (![0, 0] : Fin 2 → Nat) a + S1x2048.size a ≤ S1x2048.size a
  h_S1x2048 : 0 < S1x2048.numel
  shapeCasts_S1x2048_S2048 : S1x2048.ShapeCasts S2048
  iota_S1x1024_d1_w32 : S1x1024.Iotas .tc 32 [1]
  h_S1024x128 : 0 < S1024x128.numel
  shapeCasts_S1024x128_S1024x128 : S1024x128.ShapeCasts S1024x128
  shapeCasts_S2048_S2048x1 : S2048.ShapeCasts S2048x1
  broadcasts_S2048x1_S2048x1024 : S2048x1.Broadcasts S2048x1024
  broadcasts_S1x1024_S2048x1024 : S1x1024.Broadcasts S2048x1024
  natLt_1_32 : 1 < 32
  packedbf16_S2048x128_S2048x128_0_0 : (Rect.unit (s := S2048x128) ![0, 0] S2048x128.size inb_S2048x128_S2048x128_0_0).PackedRows (EltTy.packing .bf16)
  inb_S13312x128_S13312x128_0_0 : ∀ a, (![0, 0] : Fin 2 → Nat) a + S13312x128.size a ≤ S13312x128.size a
  h_S13312x128 : 0 < S13312x128.numel
  inb_S1x4096_S1x4096_0_0 : ∀ a, (![0, 0] : Fin 2 → Nat) a + S1x4096.size a ≤ S1x4096.size a
  h_S1x4096 : 0 < S1x4096.numel
  shapeCasts_S1x4096_S4096 : S1x4096.ShapeCasts S4096
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  iota_S1024x1_d0_w32 : S1024x1.Iotas .tc 32 [0]
  shapeCasts_S4096_S1x4096 : S4096.ShapeCasts S1x4096
  broadcasts_S1024x1_S1024x4096 : S1024x1.Broadcasts S1024x4096
  broadcasts_S1x4096_S1024x4096 : S1x4096.Broadcasts S1024x4096
  slices_S53248x128_S50000x128_0_0 : S53248x128.Slices ![0, 0] S50000x128
  dot_S2048x1024_S1024x128_S2048x128_1_0_0_1_n_n_wf : DotDims.WF S2048x1024 S1024x128 S2048x128 [1] [0] [0] [1] [] []
  dot_S1024x4096_S4096x128_S1024x128_1_0_0_1_n_n_wf : DotDims.WF S1024x4096 S4096x128 S1024x128 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x128.size a ≤ S53248x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x602112.size a
  hwx0_0 : ∀ i : grid0.Coords, EltTy.bits .i32 = 32 ∨ (Rect.block (s := S1x602112) S1x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x602112.size a
  hwx0_1 : ∀ i : grid0.Coords, EltTy.bits .i32 = 32 ∨ (Rect.block (s := S1x602112) S1x2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S53248x128.size a ≤ S53248x128.size a
  hwx0_2 : ∀ i : grid0.Coords, EltTy.bits .bf16 = 32 ∨ (Rect.block (s := S53248x128) S53248x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S602112x128.size a
  hwx0_3 : ∀ i : grid0.Coords, EltTy.bits .bf16 = 32 ∨ (Rect.block (s := S602112x128) S2048x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S602112x128.size a
  hwx0_4 : ∀ i : grid0.Coords, EltTy.bits .bf16 = 32 ∨ (Rect.block (s := S602112x128) S2048x128.size (cc0_transform_4 i) (hinb0_4 i)).WholeWords (EltTy.packing .bf16)
  hrank1 : 0 < grid1.rank
  k1_t1_ok : k1_t1_loop.OK
  k1_mult1_dvd : ∀ k1_t1 : Fin k1_t1_loop.trips, 1024 ∣ (k1_mult1 k1_t1).toNat
  k1_off1_inb : ∀ k1_t1 : Fin k1_t1_loop.trips, ∀ a, (k1_off1 k1_t1) a + S1024x128.size a ≤ S13312x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x602112.size a
  hwx1_0 : ∀ i : grid1.Coords, EltTy.bits .i32 = 32 ∨ (Rect.block (s := S1x602112) S1x4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S602112x128.size a
  hwx1_1 : ∀ i : grid1.Coords, EltTy.bits .bf16 = 32 ∨ (Rect.block (s := S602112x128) S4096x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S13312x128.size a ≤ S53248x128.size a
  hwx1_2 : ∀ i : grid1.Coords, EltTy.bits .f32 = 32 ∨ (Rect.block (s := S53248x128) S13312x128.size (cc1_transform_2 i) (hinb1_2 i)).WholeWords (EltTy.packing .f32)
  hrank2 : 0 < grid2.rank
  k2_t1_ok : k2_t1_loop.OK
  k2_mult1_dvd : ∀ k2_t1 : Fin k2_t1_loop.trips, 1024 ∣ (k2_mult1 k2_t1).toNat
  k2_off1_inb : ∀ k2_t1 : Fin k2_t1_loop.trips, ∀ a, (k2_off1 k2_t1) a + S1024x128.size a ≤ S13312x128.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x4096.size a ≤ S1x602112.size a
  hwx2_0 : ∀ i : grid2.Coords, EltTy.bits .i32 = 32 ∨ (Rect.block (s := S1x602112) S1x4096.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S602112x128.size a
  hwx2_1 : ∀ i : grid2.Coords, EltTy.bits .bf16 = 32 ∨ (Rect.block (s := S602112x128) S4096x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S13312x128.size a ≤ S53248x128.size a
  hwx2_2 : ∀ i : grid2.Coords, EltTy.bits .f32 = 32 ∨ (Rect.block (s := S53248x128) S13312x128.size (cc2_transform_2 i) (hinb2_2 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf

abbrev win0_0 : Pipeline.Window sig grid0 :=
  Pipeline.Window.ofSpec (Memref.whole main_v3) S1x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S53248x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S2048x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v4) S1x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_0) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S13312x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v3) S1x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7_1) S4096x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S13312x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S600000 : Shape := ⟨1, ![600000]⟩
abbrev S_ : Shape := ⟨0, ![]⟩
abbrev S600000x1 : Shape := ⟨2, ![600000, 1]⟩
abbrev S600000x128 : Shape := ⟨2, ![600000, 128]⟩

abbrev nBuf : Space → Nat
  | .hbm => 29
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S_, .i32⟩
  | .hbm, ⟨4, _⟩ => ⟨S600000, .i32⟩
  | .hbm, ⟨5, _⟩ => ⟨S600000, .i1⟩
  | .hbm, ⟨6, _⟩ => ⟨S_, .i32⟩
  | .hbm, ⟨7, _⟩ => ⟨S600000, .i32⟩
  | .hbm, ⟨8, _⟩ => ⟨S600000, .i32⟩
  | .hbm, ⟨9, _⟩ => ⟨S600000, .i32⟩
  | .hbm, ⟨10, _⟩ => ⟨S600000x1, .i32⟩
  | .hbm, ⟨11, _⟩ => ⟨S600000x128, .f32⟩
  | .hbm, ⟨12, _⟩ => ⟨S_, .f32⟩
  | .hbm, ⟨13, _⟩ => ⟨S50000x128, .f32⟩
  | .hbm, ⟨14, _⟩ => ⟨S600000x1, .i32⟩
  | .hbm, ⟨15, _⟩ => ⟨S50000x128, .f32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .f32⟩
  | .hbm, ⟨26, _⟩ => ⟨S50000x128, .f32⟩
  | .hbm, ⟨27, _⟩ => ⟨S600000x1, .i32⟩
  | .hbm, ⟨28, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.Spec.lean ====
/-
  The mathematics both programs compute, stated once over literal shapes and with no program in sight.

  An edge list of 600000 (src, dst) pairs over 50000 nodes with 128 features each.  The result for the
  "in" side is, at node n and feature d, the sum over the edges e whose dst is n of h[src e, d]; the "out"
  side swaps the roles of src and dst.  Written with a ONE-HOT WEIGHT `hot a b` (1 when the two words are
  equal, 0 otherwise) both the selection of a table row by an index word and the accumulation into a node's
  row are plain finite sums of products, which is exactly how the kernel computes them (a compare turned into
  a 0/1 matrix, then a matrix product), while the reference selects and accumulates directly.

  The kernel works on padded data: the edge list is padded to 602112 entries with the word 53248, the table
  to 53248 rows with zeros, and the 53248-row result is cut back to its first 50000 rows.
-/
import Idealize.ShloMosaic.PureOps.Ideal
import Idealize.ShloMosaic.Lib.ValueIdx

noncomputable section

namespace Cert.Spec

open Idealize.ShloMosaic Idealize.ShloMosaic.ValueIdx

/-- The one-hot weight of two words: 1 when they are equal, 0 otherwise. -/
def hot (a b : BitVec 32) : EReal := if a = b then 1 else 0

/-- Row selection as a sum: entry (k, d) is the sum over table rows n of `hot (idx k) n` times the table at (n, d). -/
def gatherRows (idx : (⟨2, ![1, 602112]⟩ : Shape).Idx → BitVec 32) (tbl : (⟨2, ![53248, 128]⟩ : Shape).Idx → EReal) :
    (⟨2, ![602112, 128]⟩ : Shape).Idx → EReal :=
  fun i => ∑ n : Fin 53248, hot (idx (ix2 (0 : Fin 1) (i 0))) (BitVec.ofNat 32 n.val) * tbl (ix2 n (i 1))

/-- Row accumulation as a sum: entry (n, d) is the sum over list positions k of `hot n (idx k)` times g at (k, d). -/
def scatterRows (idx : (⟨2, ![1, 602112]⟩ : Shape).Idx → BitVec 32) (g : (⟨2, ![602112, 128]⟩ : Shape).Idx → EReal) :
    (⟨2, ![53248, 128]⟩ : Shape).Idx → EReal :=
  fun i => ∑ k : Fin 602112, hot (BitVec.ofNat 32 (i 0).val) (idx (ix2 (0 : Fin 1) k)) * g (ix2 k (i 1))

/-- The index list padded to 602112 entries with the word 53248, laid out as one row. -/
def padIdx (x : (⟨1, ![600000]⟩ : Shape).Idx → BitVec 32) : (⟨2, ![1, 602112]⟩ : Shape).Idx → BitVec 32 :=
  fun i => if h : (i 1).val < 600000 then x (ix1 ⟨(i 1).val, h⟩) else 53248#32

/-- The table padded to 53248 rows with zeros. -/
def padRows (x : (⟨2, ![50000, 128]⟩ : Shape).Idx → EReal) : (⟨2, ![53248, 128]⟩ : Shape).Idx → EReal :=
  fun i => if h : (i 0).val < 50000 then x (ix2 ⟨(i 0).val, h⟩ (i 1)) else 0

/-- The first 50000 rows of a 53248-row array. -/
def sliceRows (x : (⟨2, ![53248, 128]⟩ : Shape).Idx → EReal) : (⟨2, ![50000, 128]⟩ : Shape).Idx → EReal :=
  fun i => x (ix2 ⟨(i 0).val, Nat.lt_of_lt_of_le (i 0).isLt (by decide)⟩ (i 1))

/-- What the padded pipeline computes from (table, gather index, scatter index): pad, select rows, accumulate, cut. -/
def kernelSide (x : (⟨2, ![50000, 128]⟩ : Shape).Idx → EReal) (gi si : (⟨1, ![600000]⟩ : Shape).Idx → BitVec 32) :
    (⟨2, ![50000, 128]⟩ : Shape).Idx → EReal :=
  sliceRows (scatterRows (padIdx si) (gatherRows (padIdx gi) (padRows x)))

/-- The segment sum: at node n and feature d, the sum over the edges e whose scatter index is n of the table row the
    gather index names (a gather index outside the table contributes 0: under the precondition there is none). -/
def refSide (x : (⟨2, ![50000, 128]⟩ : Shape).Idx → EReal) (gi si : (⟨1, ![600000]⟩ : Shape).Idx → BitVec 32) :
    (⟨2, ![50000, 128]⟩ : Shape).Idx → EReal :=
  fun i => ∑ e : Fin 600000, hot (BitVec.ofNat 32 (i 0).val) (si (ix1 e)) *
    (if h : (gi (ix1 e)).toNat < 50000 then x (ix2 ⟨(gi (ix1 e)).toNat, h⟩ (i 1)) else 0)

/-- Every word of an index list names a node: read unsigned it is below 50000. -/
def InRange (x : (⟨1, ![600000]⟩ : Shape).Idx → BitVec 32) : Prop := ∀ e : Fin 600000, (x (ix1 e)).toNat < 50000

end Cert.Spec

end
-- ==== Proof.Algebra.lean ====
import proofs.«407194_j57183194579314_3_alg».proof.Proof.Spec
import Mathlib.Algebra.BigOperators.Fin

noncomputable section

namespace Cert.Spec

open Idealize.ShloMosaic Idealize.ShloMosaic.ValueIdx

/-! ## Finite sums with a vanishing tail -/

/-- A sum over `Fin N` whose terms vanish from position `m` on is the sum over the first `m` positions. -/
theorem sum_fin_of_zero_tail {M : Type*} [AddCommMonoid M] {m N : ℕ} (h : m ≤ N) (f : Fin N → M)
    (hf : ∀ k : Fin N, m ≤ k.val → f k = 0) : ∑ k, f k = ∑ e : Fin m, f (Fin.castLE h e) := by
  obtain ⟨r, rfl⟩ := Nat.exists_eq_add_of_le h
  rw [Fin.sum_univ_add, Finset.sum_eq_zero (fun j _ => hf (Fin.natAdd m j) (by simp)), add_zero]
  rfl

/-! ## Words and the one-hot weight -/

/-- A word equals the word of a number below 2^32 exactly when its unsigned value is that number. -/
theorem eq_ofNat_iff (w : BitVec 32) (n : ℕ) (hn : n < 4294967296) : w = BitVec.ofNat 32 n ↔ w.toNat = n := by
  constructor
  · intro h
    rw [h, BitVec.toNat_ofNat]
    omega
  · intro h
    apply BitVec.eq_of_toNat_eq
    rw [BitVec.toNat_ofNat, h]
    omega

/-- The padding word 53248 is the word of no node: its weight against every node below 50000 is 0. -/
theorem hot_pad (n : Fin 50000) : hot (BitVec.ofNat 32 n.val) 53248#32 = 0 := by
  refine if_neg (fun h => ?_)
  have h' := congrArg BitVec.toNat h
  rw [BitVec.toNat_ofNat, BitVec.toNat_ofNat] at h'
  have hn := n.isLt
  omega

/-! ## The padded index list and the padded table at a point -/

/-- Inside the first 600000 positions the padded list is the list. -/
theorem padIdx_castLE (x : (⟨1, ![600000]⟩ : Shape).Idx → BitVec 32) (h : 600000 ≤ 602112) (e : Fin 600000) :
    padIdx x (ix2 (0 : Fin 1) (Fin.castLE h e)) = x (ix1 e) := dif_pos e.isLt

/-- From position 600000 on the padded list is the word 53248. -/
theorem padIdx_ge (x : (⟨1, ![600000]⟩ : Shape).Idx → BitVec 32) (k : Fin 602112) (h : 600000 ≤ k.val) :
    padIdx x (ix2 (0 : Fin 1) k) = 53248#32 := dif_neg (Nat.not_lt.2 h)

/-- Inside the first 50000 rows the padded table is the table. -/
theorem padRows_lt (x : (⟨2, ![50000, 128]⟩ : Shape).Idx → EReal) (n' : Fin 53248) (d : Fin 128) (h : n'.val < 50000) :
    padRows x (ix2 n' d) = x (ix2 ⟨n'.val, h⟩ d) := dif_pos h

/-- Row selection at a word that names a node: of the 53248 one-hot terms exactly the one at the word's value
    survives, and there the padded table is the table. No finiteness of the table is needed: the other terms are
    `0 * _`, which is 0 in the extended reals whatever the second factor. -/
theorem gather_point (x : (⟨2, ![50000, 128]⟩ : Shape).Idx → EReal) (w : BitVec 32) (hw : w.toNat < 50000) (d : Fin 128) :
    ∑ n' : Fin 53248, hot w (BitVec.ofNat 32 n'.val) * padRows x (ix2 n' d) = x (ix2 ⟨w.toNat, hw⟩ d) := by
  rw [Finset.sum_eq_single (⟨w.toNat, by omega⟩ : Fin 53248)]
  · have h1 : hot w (BitVec.ofNat 32 w.toNat) = 1 := if_pos ((eq_ofNat_iff w _ (by omega)).2 rfl)
    show hot w (BitVec.ofNat 32 w.toNat) * padRows x (ix2 (⟨w.toNat, by omega⟩ : Fin 53248) d) = _
    rw [h1, one_mul]
    exact padRows_lt x _ d hw
  · intro b _ hb
    have hb' := b.isLt
    have h0 : hot w (BitVec.ofNat 32 b.val) = 0 :=
      if_neg (fun h => hb (Fin.ext ((eq_ofNat_iff w _ (by omega)).1 h).symm))
    rw [h0, zero_mul]
  · intro h
    exact absurd (Finset.mem_univ _) h

/-! ## The two sides agree -/

theorem kernelSide_eq_refSide (x : (⟨2, ![50000, 128]⟩ : Shape).Idx → EReal) (gi si : (⟨1, ![600000]⟩ : Shape).Idx → BitVec 32)
    (hg : InRange gi) (hs : InRange si) : kernelSide x gi si = refSide x gi si := by
  funext i
  obtain ⟨n, d, rfl⟩ : ∃ (n : Fin 50000) (d : Fin 128), i = ix2 n d := ⟨i 0, i 1, eq_ix2 i⟩
  show ∑ k : Fin 602112, hot (BitVec.ofNat 32 n.val) (padIdx si (ix2 (0 : Fin 1) k)) *
      (∑ n' : Fin 53248, hot (padIdx gi (ix2 (0 : Fin 1) k)) (BitVec.ofNat 32 n'.val) * padRows x (ix2 n' d)) =
    ∑ e : Fin 600000, hot (BitVec.ofNat 32 n.val) (si (ix1 e)) *
      (if h : (gi (ix1 e)).toNat < 50000 then x (ix2 ⟨(gi (ix1 e)).toNat, h⟩ d) else 0)
  rw [sum_fin_of_zero_tail (by omega : 600000 ≤ 602112)]
  · refine Finset.sum_congr rfl (fun e _ => ?_)
    rw [padIdx_castLE si, padIdx_castLE gi, gather_point x _ (hg e) d, dif_pos (hg e)]
  · intro k hk
    rw [padIdx_ge si k hk, hot_pad, zero_mul]

end Cert.Spec

end
-- ==== Proof.Host.lean ====
import proofs.«407194_j57183194579314_3_alg».proof.Proof.Spec
import proofs.«407194_j57183194579314_3_alg».proof.Proof.Gen.KernelIdeal.Frame
import Idealize.ShloMosaic.Lib.Pipeline.Value
import Idealize.ShloMosaic.Lib.Tactic
import Idealize.ShloMosaic.Lib.StableHlo.Run

noncomputable section

open Idealize.ShloMosaic Idealize.ShloMosaic.TcCoe Idealize.SL.Sem
open Idealize.ShloMosaic.Pipeline (Dat)

namespace Cert.KernelIdeal.HostValue

open Cert.KernelIdeal Cert.KernelIdeal.Gen

variable (m : (ℓ : Loc nD τ sig) → Buf (Elt Ideal) ℓ) (ρ : Dev nD → PrngReg)

/-! ## A stretch of host operations leaves alone every buffer it does not write

The slice stretches each write one buffer (`main_v9`, resp. `main_v11`); any other buffer reads through them. -/

theorem after2_of_ne (c : Dev nD) (b : Ref sig .tc) (hb : b ≠ main_v9) :
    W5 (F := Ideal) m ρ c (Proc.devRef .tc b) = W4 (F := Ideal) m ρ c (Proc.devRef .tc b) :=
  StableHlo.after_of_forall_not_mem (b := Proc.devRef .tc b) _ _ (List.forall_iff_forall_mem.mp (by
    simp only [hostOps2, List.Forall, StableHlo.unary_writes, Finset.mem_singleton]
    exact StableHlo.devRef_ne_of_ne hb))

theorem after3_of_ne (c : Dev nD) (b : Ref sig .tc) (hb : b ≠ main_v11) :
    W7 (F := Ideal) m ρ c (Proc.devRef .tc b) = W6 (F := Ideal) m ρ c (Proc.devRef .tc b) :=
  StableHlo.after_of_forall_not_mem (b := Proc.devRef .tc b) _ _ (List.forall_iff_forall_mem.mp (by
    simp only [hostOps3, List.Forall, StableHlo.unary_writes, Finset.mem_singleton]
    exact StableHlo.devRef_ne_of_ne hb))

/-- Taking the first 50000 rows, read at an index: the same row and column of the 53248-row array. -/
theorem slice_eq (x : (⟨S53248x128, .f32⟩ : BufTy).Contents (Elt Ideal)) :
    (extractStridedSlice S50000x128 ![0, 0] x slices_S53248x128_S50000x128_0_0 : (⟨S50000x128, .f32⟩ : BufTy).Contents (Elt Ideal))
      = Cert.Spec.sliceRows x := by
  funext i
  unfold Cert.Spec.sliceRows
  refine extractStridedSlice_apply _ x _ i _ fun a => ?_
  match a with
  | ⟨0, _⟩ => show (i 0).val = 0 + (i 0).val; omega
  | ⟨1, _⟩ => show (i 1).val = 0 + (i 1).val; omega

/-! ## The padded index list and the padded table, read at an index

The index list is the 600000 words followed by 2112 copies of the word 53248, laid out as one row of 602112: position
(0, k) of the row is flat position k, which falls in the list when k < 600000 and in the constant tail otherwise.
The table is its 50000 rows followed by 3248 rows of the integer zero converted to a float, which is 0; narrowing the
table's entries to a shorter float format does not change an ideal value. -/

theorem padIdx_eq (x : IVec S600000 32) :
    (shapeCast S1x602112
      (concatenate S602112 0
        [⟨S600000, x⟩, ⟨S2112, broadcastInDim S2112 ![] bcast_S_S2112 (constantI S_ 32 53248#32)⟩]
        concatenates_S600000_S2112_S602112_d0)
      shapeCasts_S602112_S1x602112 : IVec S1x602112 32) = Cert.Spec.padIdx x := by
  funext i
  unfold Cert.Spec.padIdx
  have h1 : (i 1).val < 602112 := (i 1).isLt
  have h0 : (i 0).val < 1 := (i 0).isLt
  refine (shapeCast_apply _ shapeCasts_S602112_S1x602112 i (ValueIdx.ix1 (⟨(i 1).val, h1⟩ : Fin 602112)) ?_).trans ?_
  · rw [Shape.rowMajor_val_one, Shape.rowMajor_val_two]
    show (i 1).val = (i 0).val * 602112 + (i 1).val
    omega
  by_cases h : (i 1).val < 600000
  · rw [dif_pos h]
    exact concatenate_pair_apply_left 0 x _ concatenates_S600000_S2112_S602112_d0 _ rfl
      (ValueIdx.ix1 (⟨(i 1).val, h⟩ : Fin 600000)) (fun b => by match b with | ⟨0, _⟩ => rfl)
  · rw [dif_neg h]
    refine (concatenate_pair_apply_right 0 x _ concatenates_S600000_S2112_S602112_d0 _ rfl rfl
      (ValueIdx.ix1 (⟨(i 1).val - 600000, by omega⟩ : Fin 2112))
      (fun b hb => by match b with | ⟨0, _⟩ => exact absurd rfl hb) ?_).trans ?_
    · show (i 1).val - 600000 + 600000 = (i 1).val
      omega
    · exact broadcastInDim_apply _ bcast_S_S2112 _ _ ValueIdx.ix0 (fun a => a.elim0)

theorem padRows_eq (x : FVec Ideal S50000x128 .f32) :
    (pad S53248x128 ![0, 0] ![3248, 0] ![0, 0] (truncf .bf16 x bitsLt_bf16_f32)
      (sitofp (F := Ideal) .bf16 (constantI S_ 32 0#32)) pads_S50000x128_S53248x128_032480_000 h_S_
        : FVec Ideal S53248x128 .bf16) = Cert.Spec.padRows x := by
  funext i
  unfold Cert.Spec.padRows
  by_cases h : (i 0).val < 50000
  · rw [dif_pos h]
    unfold pad
    split
    · next hin =>
      exact congrArg x (funext fun a => Fin.ext (by
        match a with
        | ⟨0, _⟩ => show ((i 0).val - 0) / (0 + 1) = (i 0).val; omega
        | ⟨1, _⟩ => show ((i 1).val - 0) / (0 + 1) = (i 1).val; omega))
    · next hin =>
      refine absurd (fun a => ?_) hin
      have h1 : (i 1).val < 128 := (i 1).isLt
      match a with
      | ⟨0, _⟩ => show 0 ≤ (i 0).val ∧ ((i 0).val - 0) % (0 + 1) = 0 ∧ ((i 0).val - 0) / (0 + 1) < 50000; omega
      | ⟨1, _⟩ => show 0 ≤ (i 1).val ∧ ((i 1).val - 0) % (0 + 1) = 0 ∧ ((i 1).val - 0) / (0 + 1) < 128; omega
  · rw [dif_neg h]
    unfold pad
    split
    · next hin =>
      have h3 : ((i 0).val - 0) / (0 + 1) < 50000 := (hin 0).2.2
      exact absurd (by omega) h
    · show ((((0#32 : BitVec 32).toInt : ℤ) : ℝ) : EReal) = 0
      simp

/-! ## What region 0 finds in its three input arrays

The two index rows are the padded lists of the second and third arguments, the table is the first argument padded with
zero rows: each is the host operations' composed term, read by the two lemmas above. -/

theorem V2_v3 (c : Dev nD) : V2 (F := Ideal) m ρ c main_v3 = Cert.Spec.padIdx (m ((c : Thread nD τ).loc main_arg1)) := by
  show StableHlo.after hostOps0_1 (StableHlo.after hostOps0 (W0 (F := Ideal) m ρ c)) (Proc.devRef .tc main_v3) = _
  after_results
  exact padIdx_eq _
theorem V2_v4 (c : Dev nD) : V2 (F := Ideal) m ρ c main_v4 = Cert.Spec.padIdx (m ((c : Thread nD τ).loc main_arg2)) := by
  show StableHlo.after hostOps0_1 (StableHlo.after hostOps0 (W0 (F := Ideal) m ρ c)) (Proc.devRef .tc main_v4) = _
  after_results
  exact padIdx_eq _
theorem V2_v6 (c : Dev nD) : V2 (F := Ideal) m ρ c main_v6 = Cert.Spec.padRows (m ((c : Thread nD τ).loc main_arg0)) := by
  show StableHlo.after hostOps0_1 (StableHlo.after hostOps0 (W0 (F := Ideal) m ρ c)) (Proc.devRef .tc main_v6) = _
  after_results
  exact padRows_eq _

/-! ## The walk between region boundaries

A region changes only its output arrays: an input array leaves as it entered, an output array leaves holding the
region's folded write-backs, and a buffer that is no array of the region is untouched. A host stretch changes only the
buffer it writes. So the row list read by region 1 is the one region 0 read, the one read by region 2 likewise (through
region 1 and the slice, which write neither), and each gathered array reaches the region that accumulates it exactly as
region 0 left it. -/

theorem V3_v4 (c : Dev nD) : V3 (F := Ideal) m ρ c main_v4 = V2 (F := Ideal) m ρ c main_v4 :=
  (W3_arr (F := Ideal) m ρ c 1).trans (((dat0 (F := Ideal) (V2 m ρ) c).arrAt_in 1 rfl _).trans (A_eq0 (F := Ideal) (V2 m ρ) c 1))
theorem V3_v7_0 (c : Dev nD) : V3 (F := Ideal) m ρ c main_v7_0 = (dat0 (F := Ideal) (V2 m ρ) c).arrAt 3 cfg0.N :=
  W3_arr (F := Ideal) m ρ c 3
theorem W4_v8 (c : Dev nD) : W4 (F := Ideal) m ρ c (Proc.devRef .tc main_v8) = (dat1 (F := Ideal) (V3 m ρ) c).arrAt 2 cfg1.N :=
  W4_arr (F := Ideal) m ρ c 2
theorem V5_v3 (c : Dev nD) : V5 (F := Ideal) m ρ c main_v3 = V2 (F := Ideal) m ρ c main_v3 :=
  calc V5 (F := Ideal) m ρ c main_v3
    _ = W4 (F := Ideal) m ρ c (Proc.devRef .tc main_v3) := after2_of_ne m ρ c main_v3 (by decide)
    _ = W3 (F := Ideal) m ρ c (Proc.devRef .tc main_v3) := W4_of_ne (F := Ideal) m ρ c main_v3 (by decide)
    _ = (dat0 (F := Ideal) (V2 m ρ) c).arrAt 0 cfg0.N := W3_arr (F := Ideal) m ρ c 0
    _ = V2 (F := Ideal) m ρ c main_v3 := ((dat0 (F := Ideal) (V2 m ρ) c).arrAt_in 0 rfl _).trans (A_eq0 (F := Ideal) (V2 m ρ) c 0)
theorem V5_v7_1 (c : Dev nD) : V5 (F := Ideal) m ρ c main_v7_1 = (dat0 (F := Ideal) (V2 m ρ) c).arrAt 4 cfg0.N :=
  calc V5 (F := Ideal) m ρ c main_v7_1
    _ = W4 (F := Ideal) m ρ c (Proc.devRef .tc main_v7_1) := after2_of_ne m ρ c main_v7_1 (by decide)
    _ = W3 (F := Ideal) m ρ c (Proc.devRef .tc main_v7_1) := W4_of_ne (F := Ideal) m ρ c main_v7_1 (by decide)
    _ = (dat0 (F := Ideal) (V2 m ρ) c).arrAt 4 cfg0.N := W3_arr (F := Ideal) m ρ c 4
theorem W6_v10 (c : Dev nD) : W6 (F := Ideal) m ρ c (Proc.devRef .tc main_v10) = (dat2 (F := Ideal) (V5 m ρ) c).arrAt 2 cfg2.N :=
  W6_arr (F := Ideal) m ρ c 2

/-! ## The two results

Each result is the first 50000 rows of an accumulated array. The first slice is taken before region 2, which does not
touch its result, nor does the second slice; the second slice is the last operation. -/

theorem W7_v9 (c : Dev nD) : W7 (F := Ideal) m ρ c (Proc.devRef .tc main_v9)
    = Cert.Spec.sliceRows (W4 (F := Ideal) m ρ c (Proc.devRef .tc main_v8)) :=
  calc W7 (F := Ideal) m ρ c (Proc.devRef .tc main_v9)
    _ = W6 (F := Ideal) m ρ c (Proc.devRef .tc main_v9) := after3_of_ne m ρ c main_v9 (by decide)
    _ = W5 (F := Ideal) m ρ c (Proc.devRef .tc main_v9) := W6_of_ne (F := Ideal) m ρ c main_v9 (by decide)
    _ = Cert.Spec.sliceRows (W4 (F := Ideal) m ρ c (Proc.devRef .tc main_v8)) := by
      show StableHlo.after hostOps2 (W4 (F := Ideal) m ρ c) (Proc.devRef .tc main_v9) = _
      after_results
      exact slice_eq _
theorem W7_v11 (c : Dev nD) : W7 (F := Ideal) m ρ c (Proc.devRef .tc main_v11)
    = Cert.Spec.sliceRows (W6 (F := Ideal) m ρ c (Proc.devRef .tc main_v10)) := by
  show StableHlo.after hostOps3 (W6 (F := Ideal) m ρ c) (Proc.devRef .tc main_v11) = _
  after_results
  exact slice_eq _

end Cert.KernelIdeal.HostValue

end
-- ==== Proof.LibOneHot.lean ====
/-
  One-hot selection over the extended reals, and a pointwise property carried through a sort.

  A gather written as a matrix product: row `r` of the left factor is the indicator of one position, so the
  product's entry is the sum over positions `p` of `[v = p] · X p`, which is `X v` when `v` is one of the positions
  summed over and `0` otherwise (on the extended reals `0 · x = 0` and `1 · x = x` for every `x`, the infinities
  included, so nothing is asked of `X`). Summed chunk by chunk into an accumulator that starts at zero, the
  accumulator after the chunks below `B` is `X v` if `v < B` and `0` otherwise.

  A stable sort along an axis only permutes each fibre, so whatever holds of every entry of the operand holds of
  every entry of the result.
-/
import Idealize.ShloMosaic.PureOps.Ideal
import Idealize.ShloMosaic.PureOps.ShapeOps

noncomputable section

namespace Cert.Lib.OneHot

open Idealize.ShloMosaic

/-- Whatever holds of every entry of a sort's operand holds of every entry of its result: each result entry IS an
    operand entry (of the same fibre). -/
theorem sort_forall {s : Shape} {d : Nat} {α : Type} (cmp : α → α → BitVec 1) (x : s.Idx → α) (P : α → Prop)
    (h : ∀ i, P (x i)) (j : s.Idx) : P (Host.sort s d cmp x j) := by
  by_cases hd : d < s.rank
  · simp only [Host.sort, dif_pos hd]; exact h _
  · simp only [Host.sort, dif_neg hd]; exact h _

/-- The integer compare for equality answers `1` exactly at equal words. -/
theorem cmpi_eq_one_iff {w : Nat} (x y : BitVec w) : IntOp.cmpi .eq x y = 1#1 ↔ x = y := by
  unfold IntOp.cmpi
  by_cases h : x = y
  · subst h; simp
  · have hb : (x == y) = false := by simpa using h
    simp only [hb]
    constructor
    · intro e; exact absurd e (by decide)
    · intro e; exact absurd e h

/-- The equality bit of two 32-bit words, widened to 32 bits and read as a signed integer, is `1` or `0`. -/
theorem eqBit_toInt (x y : BitVec 32) : ((IntOp.cmpi .eq x y).setWidth 32).toInt = if x = y then 1 else 0 := by
  unfold IntOp.cmpi
  by_cases h : x = y
  · subst h; simp
  · have hb : (x == y) = false := by simpa using h
    show ((BitVec.ofBool (x == y)).setWidth 32).toInt = _
    rw [hb, if_neg h]
    decide

/-- THE ONE-HOT SUM. Over the `n` positions `o, …, o + n − 1`, the sum of `[v = position] · X position` is `X v` when
    `v` is one of them, else `0`. -/
theorem sum_onehot {n : ℕ} (v : BitVec 32) (o : ℕ) (ho : o + n ≤ 2 ^ 32) (X : ℕ → EReal) :
    ∑ j : Fin n, (if v = BitVec.ofNat 32 (o + j.val) then (1 : EReal) else 0) * X (o + j.val)
      = if o ≤ v.toNat ∧ v.toNat < o + n then X v.toNat else 0 := by
  have hne : ∀ j : Fin n, v.toNat ≠ o + j.val → v ≠ BitVec.ofNat 32 (o + j.val) := by
    intro j hj e
    apply hj
    have := congrArg BitVec.toNat e
    rw [BitVec.toNat_ofNat, Nat.mod_eq_of_lt (by have := j.isLt; omega)] at this
    exact this
  split
  · rename_i h
    rw [Finset.sum_eq_single (⟨v.toNat - o, by omega⟩ : Fin n)]
    · have e : o + (v.toNat - o) = v.toNat := by omega
      have hv : v = BitVec.ofNat 32 (o + (v.toNat - o)) := by
        rw [e]; apply BitVec.eq_of_toNat_eq; rw [BitVec.toNat_ofNat, Nat.mod_eq_of_lt v.isLt]
      rw [if_pos hv, one_mul, e]
    · intro j _ hj
      rw [if_neg (hne j (fun e => hj (Fin.ext (by simp only; omega)))), zero_mul]
    · intro h'; exact absurd (Finset.mem_univ _) h'
  · rename_i h
    refine Finset.sum_eq_zero fun j _ => ?_
    rw [if_neg (hne j (fun e => h (by have := j.isLt; omega))), zero_mul]

/-- ONE CHUNK MORE. The accumulator over the positions below `o`, plus the one-hot sum over the next `n`
    positions, is the accumulator over the positions below `o + n`. -/
theorem upto_add (v : BitVec 32) (o n : ℕ) (X : ℕ → EReal) :
    (if v.toNat < o then X v.toNat else 0) + (if o ≤ v.toNat ∧ v.toNat < o + n then X v.toNat else 0)
      = if v.toNat < o + n then X v.toNat else 0 := by
  by_cases h1 : v.toNat < o
  · rw [if_pos h1, if_neg (by omega), if_pos (by omega), add_zero]
  · by_cases h2 : v.toNat < o + n
    · rw [if_neg h1, if_pos ⟨by omega, h2⟩, if_pos h2, zero_add]
    · rw [if_neg h1, if_neg (by omega), if_neg h2, add_zero]

end Cert.Lib.OneHot

end
-- ==== Proof.Gather.lean ====
/-
  The first kernel's two result arrays, as values: each is the row selection of the padded table by one of the two
  padded index lists (`Cert.Spec.gatherRows`).

  Point t of the 294-point grid handles the 2048 list positions 2048 t, …, 2048 t + 2047. It clears two [2048, 128]
  accumulators and then makes 52 trips. Trip k takes the table rows 1024 k, …, 1024 k + 1023, forms for each index list
  the 0/1 matrix whose entry (r, col) says whether index r equals 1024 k + col (index r less 1024 k compared with col),
  and adds the product of that matrix with the 1024 rows to the list's accumulator. So after k trips entry (r, d) of an
  accumulator is the sum, over the table rows n below 1024 k, of hot(index r, n) · table(n, d); after all 52 trips it is
  that sum over all 53248 rows, every row being 1024 k + col for exactly one trip and column. A change of float format is
  the identity on the extended reals, so this is what the point stores into its output block, and it is
  `gatherRows` at row 2048 t + r. Every point writes its block back, and the 294 blocks of 2048 rows tile the
  602112 rows of the result.
-/
import proofs.«407194_j57183194579314_3_alg».proof.Proof.Spec
import proofs.«407194_j57183194579314_3_alg».proof.Proof.Gen.KernelIdeal.Frame
import Idealize.ShloMosaic.Lib.Pipeline.Value
import Idealize.ShloMosaic.Lib.Tactic
import Idealize.ShloMosaic.Lib.ValueLayout
import Idealize.ShloMosaic.PureOps.Ideal.Laws
import proofs.«407194_j57183194579314_3_alg».proof.Proof.LibOneHot

noncomputable section

open Idealize.ShloMosaic Idealize.ShloMosaic.TcCoe Idealize.SL.Sem
open Idealize.ShloMosaic.Pipeline (Dat)

namespace Cert.KernelIdeal.GatherValue

open Cert.KernelIdeal Cert.KernelIdeal.Gen

variable {F : FTy → Type} [FloatOps F]

/-- The two zero offsets of a whole-block access, spelt as the constant function. -/
theorem hz : (![0, 0] : Fin 2 → Nat) = fun _ => 0 := funext fun a => by fin_cases a <;> rfl

/-- A store of the whole shape, last, is what the buffer reads afterwards, whatever was written before. -/
theorem read_writes_cons_whole {sig' : RefSig} {κ : Kind} {sp : Space} {S : Shape} {e : EltTy}
    (v : View sig' κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  subst h; funext y
  have e := View.read_writes_cons_emb v f (Rect.whole S) w L y
  rw [Rect.emb_whole_apply] at e
  exact e

/-- Rows 1024k .. 1024k+1023 of the table: what trip k loads. -/
def rowsAt (x2 : Vec F S53248x128 .bf16) (k : Fin k0_t1_loop.trips) : Vec F S1024x128 .bf16 :=
  View.ld x2 (Rect.unit (s := S53248x128) (k0_off1 k) S1024x128.size (k0_off1_inb k))

/-- The accumulator after k trips: the start block, then one update per trip from the trip's table rows. -/
def accOf (pay : Fin k0_t1_loop.trips → Vec F S1024x128 .bf16 → Vec F S2048x128 .f32 → FVec F S2048x128 .f32)
    (z : Vec F S2048x128 .f32) (x2 : Vec F S53248x128 .bf16) : ℕ → Vec F S2048x128 .f32
  | 0 => z
  | k + 1 => if h : k < k0_t1_loop.trips then pay ⟨k, h⟩ (rowsAt x2 ⟨k, h⟩) (accOf pay z x2 k) else accOf pay z x2 k

/-- One trip writes one whole block into each accumulator: the update of what it finds there by the trip's table rows. -/
theorem trip_pieces (c : Dev nD) (i : grid0.Coords) (arg1 : Memref sig .tc .vmem S1x2048 .i32) (harg1 : arg1.IsWhole) (arg2 : Memref sig .tc .vmem S1x2048 .i32) (harg2 : arg2.IsWhole) (arg3 : Memref sig .tc .vmem S53248x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (v8 : Vec F S1x2048 .i32) (v10 : Vec F S1x2048 .i32) (X3 : BufTy.Contents (Elt F) arg3.view.ty) (k : Fin k0_t1_loop.trips)
    (f6 : BufTy.Contents (Elt F) arg6.view.ty) (f7 : BufTy.Contents (Elt F) arg7.view.ty) :
    tripL_k0_t1 (F := F) Variants.none c none i arg1 harg1 arg2 harg2 arg3 harg3 arg4 harg4 arg5 harg5 arg6 harg6 arg7 harg7 v8 v10 X3 k f6 f7
      = ([⟨Rect.unit (s := S2048x128) ![0, 0] S2048x128.size inb_S2048x128_S2048x128_0_0,
            k0_pay4 v8 k (rowsAt (arg3.view.read (Elt F) X3) k) (arg6.view.read (Elt F) f6)⟩],
         [⟨Rect.unit (s := S2048x128) ![0, 0] S2048x128.size inb_S2048x128_S2048x128_0_0,
            k0_pay5 v10 k (rowsAt (arg3.view.read (Elt F) X3) k) (arg7.view.read (Elt F) f7)⟩]) := by
  unfold tripL_k0_t1
  unfold trip_k0_t1
  dsimp only
  simp only [View.readAt_eq_ld, View.ld_unit_zero (S := S2048x128) hz]
  rfl

/-- After k trips each accumulator reads as the k-fold update of the block the loop found in it. -/
theorem scratch_after (c : Dev nD) (i : grid0.Coords) (arg1 : Memref sig .tc .vmem S1x2048 .i32) (harg1 : arg1.IsWhole) (arg2 : Memref sig .tc .vmem S1x2048 .i32) (harg2 : arg2.IsWhole) (arg3 : Memref sig .tc .vmem S53248x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (v8 : Vec F S1x2048 .i32) (v10 : Vec F S1x2048 .i32) (X3 : BufTy.Contents (Elt F) arg3.view.ty)
    (G6 : BufTy.Contents (Elt F) arg6.view.ty) (G7 : BufTy.Contents (Elt F) arg7.view.ty) :
    ∀ k : ℕ, k ≤ k0_t1_loop.trips →
      arg6.view.read (Elt F) (arg6.view.writes (Elt F) G6 (pb_k0_t1 (F := F) Variants.none c none i arg1 harg1 arg2 harg2 arg3 harg3 arg4 harg4 arg5 harg5 arg6 harg6 arg7 harg7 v8 v10 X3 G6 G7 k).1)
          = accOf (k0_pay4 v8) (arg6.view.read (Elt F) G6) (arg3.view.read (Elt F) X3) k
        ∧ arg7.view.read (Elt F) (arg7.view.writes (Elt F) G7 (pb_k0_t1 (F := F) Variants.none c none i arg1 harg1 arg2 harg2 arg3 harg3 arg4 harg4 arg5 harg5 arg6 harg6 arg7 harg7 v8 v10 X3 G6 G7 k).2)
          = accOf (k0_pay5 v10) (arg7.view.read (Elt F) G7) (arg3.view.read (Elt F) X3) k
  | 0, _ => ⟨rfl, rfl⟩
  | k + 1, hk => by
    have hk' : k < k0_t1_loop.trips := hk
    obtain ⟨ih6, ih7⟩ := scratch_after c i arg1 harg1 arg2 harg2 arg3 harg3 arg4 harg4 arg5 harg5 arg6 harg6 arg7 harg7 v8 v10 X3 G6 G7 k (Nat.le_of_lt hk')
    have hs := pb_k0_t1_succ (F := F) Variants.none c none i arg1 harg1 arg2 harg2 arg3 harg3 arg4 harg4 arg5 harg5 arg6 harg6 arg7 harg7 v8 v10 X3 G6 G7 ⟨k, hk'⟩
    rw [trip_pieces] at hs
    dsimp only at hs
    rw [hs]
    dsimp only
    rw [List.singleton_append, List.singleton_append,
      read_writes_cons_whole arg6.view G6 hz, read_writes_cons_whole arg7.view G7 hz, ih6, ih7]
    constructor
    · rw [accOf, dif_pos hk']
    · rw [accOf, dif_pos hk']

/-- What the body leaves in output 3's staging buffer: the accumulator after all the trips, its format changed. -/
theorem out3_eq (c : Dev nD) (i : grid0.Coords) (arg1 : Memref sig .tc .vmem S1x2048 .i32) (harg1 : arg1.IsWhole) (arg2 : Memref sig .tc .vmem S1x2048 .i32) (harg2 : arg2.IsWhole) (arg3 : Memref sig .tc .vmem S53248x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (x0 : Vec F S1x2048 .i32) (x1 : Vec F S1x2048 .i32) (x2 : Vec F S53248x128 .bf16) :
    out0_A_3 c i arg1 harg1 arg2 harg2 arg3 harg3 arg4 harg4 arg5 harg5 arg6 harg6 arg7 harg7 x0 x1 x2 = k0_pay6 (accOf (k0_pay4 x0) (k0_pay1 (F := F)) x2 k0_t1_loop.trips) := by
  unfold out0_A_3
  rw [View.read_writes_eq_canon _ _ _ (cover0_A_3 c i arg1 harg1 arg2 harg2 arg3 harg3 arg4 harg4 arg5 harg5 arg6 harg6 arg7 harg7 x0 x1 x2)]
  unfold kernelRun0_A
  dsimp only
  sl_unfold_words
  rw [View.canon_unit_zero hz]
  simp only [View.readAt_eq_ld, View.ld_unit_zero (S := S2048x128) hz, View.ld_unit_zero (S := S1x2048) hz, View.writes_append]
  rw [(scratch_after c i arg1 harg1 arg2 harg2 arg3 harg3 arg4 harg4 arg5 harg5 arg6 harg6 arg7 harg7 _ _ _ _ _ _ (Nat.le_refl _)).1]
  rw [read_writes_cons_whole arg6.view _ hz, harg1.read_unread, harg3.read_unread]

/-- What the body leaves in output 4's staging buffer: the second accumulator after all the trips, its format changed. -/
theorem out4_eq (c : Dev nD) (i : grid0.Coords) (arg1 : Memref sig .tc .vmem S1x2048 .i32) (harg1 : arg1.IsWhole) (arg2 : Memref sig .tc .vmem S1x2048 .i32) (harg2 : arg2.IsWhole) (arg3 : Memref sig .tc .vmem S53248x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (x0 : Vec F S1x2048 .i32) (x1 : Vec F S1x2048 .i32) (x2 : Vec F S53248x128 .bf16) :
    out0_A_4 c i arg1 harg1 arg2 harg2 arg3 harg3 arg4 harg4 arg5 harg5 arg6 harg6 arg7 harg7 x0 x1 x2 = k0_pay7 (accOf (k0_pay5 x1) (k0_pay2 (F := F)) x2 k0_t1_loop.trips) := by
  unfold out0_A_4
  rw [View.read_writes_eq_canon _ _ _ (cover0_A_4 c i arg1 harg1 arg2 harg2 arg3 harg3 arg4 harg4 arg5 harg5 arg6 harg6 arg7 harg7 x0 x1 x2)]
  unfold kernelRun0_A
  dsimp only
  sl_unfold_words
  rw [View.canon_unit_zero hz]
  simp only [View.readAt_eq_ld, View.ld_unit_zero (S := S2048x128) hz, View.ld_unit_zero (S := S1x2048) hz, View.writes_append]
  rw [(scratch_after c i arg1 harg1 arg2 harg2 arg3 harg3 arg4 harg4 arg5 harg5 arg6 harg6 arg7 harg7 _ _ _ _ _ _ (Nat.le_refl _)).2]
  rw [read_writes_cons_whole arg7.view _ hz, harg2.read_unread, harg3.read_unread]

/-! ## One trip's update read at an entry -/

section Layout
open Idealize.ShloMosaic.ValueIdx
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

open Idealize.ShloMosaic.ValueIdx

/-- The loop makes 52 trips. -/
theorem trips_eq : k0_t1_loop.trips = 52 := by decide +kernel

/-- Trip k's base row as a word: 1024 k. -/
theorem base_word : ∀ k : Fin k0_t1_loop.trips, Scalar.muli (Scf.iv 0#32 1#32 k.val) 1024#32 = BitVec.ofNat 32 (1024 * k.val) := by
  decide +kernel

/-- Trip k loads the table from row 1024 k, column 0. -/
theorem off_rows : ∀ k : Fin k0_t1_loop.trips, k0_off1 k 0 = 1024 * k.val ∧ k0_off1 k 1 = 0 := by decide +kernel

/-- A word less a base equals a column exactly when the word is base plus column. -/
theorem sub_eq_col (v : BitVec 32) (a b : ℕ) : v - BitVec.ofNat 32 a = BitVec.ofNat 32 b ↔ v = BitVec.ofNat 32 (a + b) := by
  rw [BitVec.ofNat_add]
  generalize BitVec.ofNat 32 a = A
  generalize BitVec.ofNat 32 b = B
  constructor <;> intro h <;> bv_omega

/-- The 0/1 matrix of trip k: entry (r, col) compares index r less the base row 1024 k with the column. -/
def onehot (x : Vec F S1x2048 .i32) (k : Fin k0_t1_loop.trips) : FVec F S2048x1024 .bf16 :=
  truncf .bf16 (sitofp .f32 (extui 32 (cmpi .eq
    (broadcastTo S2048x1024 (shapeCast S2048x1 (subi (shapeCast S2048 x shapeCasts_S1x2048_S2048)
      (broadcast S2048 (Scalar.muli (Scf.iv 0#32 1#32 k) 1024#32))) shapeCasts_S2048_S2048x1) broadcasts_S2048x1_S2048x1024)
    (broadcastTo S2048x1024 (iota .tc S1x1024 32 [1] iota_S1x1024_d1_w32) broadcasts_S1x1024_S2048x1024)) natLt_1_32)) bitsLt_bf16_f32

/-- Trip k's update of the first accumulator: it adds the product of the 0/1 matrix with the trip's table rows. -/
theorem pay4_eq (x : Vec F S1x2048 .i32) (k : Fin k0_t1_loop.trips) (rows : Vec F S1024x128 .bf16) (acc : Vec F S2048x128 .f32) :
    k0_pay4 x k rows acc = addf acc (matmul dot_S2048x1024_S1024x128_S2048x128_1_0_0_1_n_n none (onehot x k) rows (constant S2048x128 .f32 0x00000000#32)) := by
  unfold k0_pay4 k0_pay3 onehot
  simp only [shapeCast_self]

/-- Trip k's update of the second accumulator, likewise. -/
theorem pay5_eq (x : Vec F S1x2048 .i32) (k : Fin k0_t1_loop.trips) (rows : Vec F S1024x128 .bf16) (acc : Vec F S2048x128 .f32) :
    k0_pay5 x k rows acc = addf acc (matmul dot_S2048x1024_S1024x128_S2048x128_1_0_0_1_n_n none (onehot x k) rows (constant S2048x128 .f32 0x00000000#32)) := by
  unfold k0_pay5 k0_pay3 onehot
  simp only [shapeCast_self]

/-- At the ideal values the 0/1 matrix's entry (r, col) is the one-hot weight of index r against row 1024 k + col. -/
theorem onehot_apply (x : Vec Ideal S1x2048 .i32) (k : Fin k0_t1_loop.trips) (r : Fin 2048) (col : Fin 1024) :
    onehot (F := Ideal) x k (ix2 r col) = Cert.Spec.hot (x (ix2 (0 : Fin 1) r)) (BitVec.ofNat 32 (1024 * k.val + col.val)) := by
  unfold onehot
  show ((((IntOp.cmpi .eq _ _).setWidth 32).toInt : ℝ) : EReal) = _
  rw [broadcastTo_a1_ab_apply, shapeCast_a_a1_apply, broadcastTo_1b_ab_apply, iota_single_apply]
  show ((((IntOp.cmpi .eq (shapeCast S2048 x shapeCasts_S1x2048_S2048 (ix1 r) - Scalar.muli (Scf.iv 0#32 1#32 k.val) 1024#32) (BitVec.ofNat 32 col.val)).setWidth 32).toInt : ℝ) : EReal) = _
  rw [shapeCast_1a_a_apply, base_word, Cert.Lib.OneHot.eqBit_toInt]
  unfold Cert.Spec.hot
  by_cases h : x (ix2 (0 : Fin 1) r) = BitVec.ofNat 32 (1024 * k.val + col.val)
  · rw [if_pos ((sub_eq_col _ _ _).mpr h), if_pos h]; simp
  · rw [if_neg (fun e => h ((sub_eq_col _ _ _).mp e)), if_neg h]; simp

/-- The product's left operand is read at (row of the output, contracted position), -/
theorem lhs_0 (j : S2048x128.Idx) (q : dot_S2048x1024_S1024x128_S2048x128_1_0_0_1_n_n.contr.Idx) : (dot_S2048x1024_S1024x128_S2048x128_1_0_0_1_n_n.lhsIdx j q 0).val = (j 0).val := by
  simp [DotDims.lhsIdx, dot_S2048x1024_S1024x128_S2048x128_1_0_0_1_n_n]; rfl
theorem lhs_1 (j : S2048x128.Idx) (q : dot_S2048x1024_S1024x128_S2048x128_1_0_0_1_n_n.contr.Idx) : (dot_S2048x1024_S1024x128_S2048x128_1_0_0_1_n_n.lhsIdx j q 1).val = (q ⟨0, by decide⟩).val :=
  dot_S2048x1024_S1024x128_S2048x128_1_0_0_1_n_n.lhsIdx_val_of_single rfl j q
/-- and its right operand at (contracted position, column of the output). -/
theorem rhs_0 (j : S2048x128.Idx) (q : dot_S2048x1024_S1024x128_S2048x128_1_0_0_1_n_n.contr.Idx) : (dot_S2048x1024_S1024x128_S2048x128_1_0_0_1_n_n.rhsIdx j q 0).val = (q ⟨0, by decide⟩).val :=
  dot_S2048x1024_S1024x128_S2048x128_1_0_0_1_n_n.rhsIdx_val_of_single rfl j q
theorem rhs_1 (j : S2048x128.Idx) (q : dot_S2048x1024_S1024x128_S2048x128_1_0_0_1_n_n.contr.Idx) : (dot_S2048x1024_S1024x128_S2048x128_1_0_0_1_n_n.rhsIdx j q 1).val = (j 1).val := by
  simp [DotDims.rhsIdx, dot_S2048x1024_S1024x128_S2048x128_1_0_0_1_n_n]; rfl

/-- One trip's update at entry (r, d): what the accumulator held plus, over the trip's 1024 columns, the one-hot weight
    of index r against row 1024 k + col times the trip's table row col at d. -/
theorem upd_apply (x : Vec Ideal S1x2048 .i32) (k : Fin k0_t1_loop.trips) (rows : Vec Ideal S1024x128 .bf16)
    (acc : Vec Ideal S2048x128 .f32) (r : Fin 2048) (d : Fin 128) :
    addf acc (matmul (φ₁ := .bf16) (φ₂ := .bf16) dot_S2048x1024_S1024x128_S2048x128_1_0_0_1_n_n none (onehot (F := Ideal) x k) rows (constant S2048x128 .f32 0x00000000#32)) (ix2 r d)
      = acc (ix2 r d) + ∑ col : Fin 1024, Cert.Spec.hot (x (ix2 (0 : Fin 1) r)) (BitVec.ofNat 32 (1024 * k.val + col.val)) * rows (ix2 col d) := by
  refine (addf_apply _ _ _).trans ?_
  refine congrArg (acc (ix2 r d) + ·) ?_
  refine (Ideal.matmul_constant_zero_apply dot_S2048x1024_S1024x128_S2048x128_1_0_0_1_n_n none (onehot (F := Ideal) x k) rows (ix2 r d)).trans ?_
  rw [← Equiv.sum_comp (contrEquiv1 dot_S2048x1024_S1024x128_S2048x128_1_0_0_1_n_n 1024 rfl rfl).symm]
  refine Finset.sum_congr rfl fun col _ => ?_
  have hc := contrEquiv1_symm_val dot_S2048x1024_S1024x128_S2048x128_1_0_0_1_n_n 1024 rfl rfl col
  have hl : dot_S2048x1024_S1024x128_S2048x128_1_0_0_1_n_n.lhsIdx (ix2 r d) ((contrEquiv1 dot_S2048x1024_S1024x128_S2048x128_1_0_0_1_n_n 1024 rfl rfl).symm col) = ix2 r col := by
    funext ax; apply Fin.ext
    match ax with
    | ⟨0, _⟩ => exact lhs_0 _ _
    | ⟨1, _⟩ => exact (lhs_1 _ _).trans hc
  have hr : dot_S2048x1024_S1024x128_S2048x128_1_0_0_1_n_n.rhsIdx (ix2 r d) ((contrEquiv1 dot_S2048x1024_S1024x128_S2048x128_1_0_0_1_n_n 1024 rfl rfl).symm col) = ix2 col d := by
    funext ax; apply Fin.ext
    match ax with
    | ⟨0, _⟩ => exact (rhs_0 _ _).trans hc
    | ⟨1, _⟩ => exact rhs_1 _ _
  rw [hl, hr, onehot_apply]

/-- Trip k's table rows at (col, d): the table at row 1024 k + col. -/
theorem rowsAt_apply (x2 : Vec F S53248x128 .bf16) (k : Fin k0_t1_loop.trips) (col : Fin 1024) (d : Fin 128)
    (h : 1024 * k.val + col.val < 53248) : rowsAt x2 k (ix2 col d) = x2 (ix2 (⟨1024 * k.val + col.val, h⟩ : Fin 53248) d) := by
  unfold rowsAt
  show x2 _ = x2 _
  refine congrArg x2 (funext fun ax => Fin.ext ?_)
  match ax with
  | ⟨0, _⟩ => show k0_off1 k 0 + 1 * col.val = 1024 * k.val + col.val; rw [(off_rows k).1]; omega
  | ⟨1, _⟩ => show k0_off1 k 1 + 1 * d.val = d.val; rw [(off_rows k).2]; omega

/-- The term of table row n in the sum that selects row idx r: its one-hot weight times the table's entry. -/
def term (x : Vec Ideal S1x2048 .i32) (x2 : Vec Ideal S53248x128 .bf16) (r : Fin 2048) (d : Fin 128) (n : ℕ) : EReal :=
  if h : n < 53248 then Cert.Spec.hot (x (ix2 (0 : Fin 1) r)) (BitVec.ofNat 32 n) * x2 (ix2 (⟨n, h⟩ : Fin 53248) d) else 0

/-- After k trips the accumulator's entry (r, d) is the sum of the terms of the table rows below 1024 k. -/
theorem acc_apply (pay : Fin k0_t1_loop.trips → Vec Ideal S1024x128 .bf16 → Vec Ideal S2048x128 .f32 → FVec Ideal S2048x128 .f32)
    (x : Vec Ideal S1x2048 .i32)
    (hpay : ∀ k rows acc, pay k rows acc = addf acc (matmul (φ₁ := .bf16) (φ₂ := .bf16) dot_S2048x1024_S1024x128_S2048x128_1_0_0_1_n_n none (onehot (F := Ideal) x k) rows (constant S2048x128 .f32 0x00000000#32)))
    (z : Vec Ideal S2048x128 .f32) (hzero : ∀ j, z j = 0) (x2 : Vec Ideal S53248x128 .bf16) (r : Fin 2048) (d : Fin 128) :
    ∀ k : ℕ, k ≤ k0_t1_loop.trips → accOf pay z x2 k (ix2 r d) = ∑ n ∈ Finset.range (1024 * k), term x x2 r d n
  | 0, _ => by rw [accOf, hzero, Nat.mul_zero, Finset.range_zero, Finset.sum_empty]
  | k + 1, hk => by
    have hk' : k < k0_t1_loop.trips := hk
    have h52 : k < 52 := by rw [← trips_eq]; exact hk'
    rw [accOf, dif_pos hk', hpay, upd_apply, acc_apply pay x hpay z hzero x2 r d k (Nat.le_of_lt hk'),
      Nat.mul_succ, Finset.sum_range_add]
    refine congrArg (_ + ·) ?_
    rw [← Fin.sum_univ_eq_sum_range (fun col => term x x2 r d (1024 * k + col)) 1024]
    refine Finset.sum_congr rfl fun col _ => ?_
    have hlt : 1024 * k + col.val < 53248 := by have := col.isLt; omega
    unfold term
    rw [dif_pos hlt, rowsAt_apply x2 ⟨k, hk'⟩ col d hlt]

/-- The start block of both accumulators is zero. -/
theorem pay1_zero (j : S2048x128.Idx) : k0_pay1 (F := Ideal) j = 0 := by
  unfold k0_pay1
  simp only [shapeCast_self]
  exact Ideal.ofBits_zero_f32
theorem pay2_zero (j : S2048x128.Idx) : k0_pay2 (F := Ideal) j = 0 := by
  unfold k0_pay2
  simp only [shapeCast_self]
  exact Ideal.ofBits_zero_f32

/-- After all 52 trips, entry (r, d) of an accumulator is the sum over ALL 53248 table rows n of the one-hot weight
    of index r against n times the table at (n, d): the rows split as n = 1024 k + col. -/
theorem acc_full (pay : Fin k0_t1_loop.trips → Vec Ideal S1024x128 .bf16 → Vec Ideal S2048x128 .f32 → FVec Ideal S2048x128 .f32)
    (x : Vec Ideal S1x2048 .i32)
    (hpay : ∀ k rows acc, pay k rows acc = addf acc (matmul (φ₁ := .bf16) (φ₂ := .bf16) dot_S2048x1024_S1024x128_S2048x128_1_0_0_1_n_n none (onehot (F := Ideal) x k) rows (constant S2048x128 .f32 0x00000000#32)))
    (z : Vec Ideal S2048x128 .f32) (hzero : ∀ j, z j = 0) (x2 : Vec Ideal S53248x128 .bf16) (r : Fin 2048) (d : Fin 128) :
    accOf pay z x2 k0_t1_loop.trips (ix2 r d)
      = ∑ n : Fin 53248, Cert.Spec.hot (x (ix2 (0 : Fin 1) r)) (BitVec.ofNat 32 n.val) * x2 (ix2 n d) := by
  rw [acc_apply pay x hpay z hzero x2 r d _ (Nat.le_refl _), trips_eq]
  show ∑ n ∈ Finset.range 53248, term x x2 r d n = _
  rw [← Fin.sum_univ_eq_sum_range (term x x2 r d) 53248]
  refine Finset.sum_congr rfl fun n _ => ?_
  unfold term
  rw [dif_pos n.isLt]

/-- The row selection read at (a, d). -/
theorem gatherRows_apply (idx : (⟨2, ![1, 602112]⟩ : Shape).Idx → BitVec 32) (tbl : (⟨2, ![53248, 128]⟩ : Shape).Idx → EReal)
    (a : Fin 602112) (d : Fin 128) :
    Cert.Spec.gatherRows idx tbl (ix2 a d)
      = ∑ n : Fin 53248, Cert.Spec.hot (idx (ix2 (0 : Fin 1) a)) (BitVec.ofNat 32 n.val) * tbl (ix2 n d) := rfl

/-- The index maps over the grid: point t's index block is block (0, t), its table block the whole table,
    its output block block (t, 0). -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem N0 : cfg0.N = 294 := by decide +kernel

/-- Row r of point t's block is row 2048 t + r of the edge list. -/
theorem row_lt (t : Fin cfg0.N) (r : Fin 2048) : 2048 * t.val + r.val < 602112 := by
  have ht := t.isLt; have hN := N0; have hr := r.isLt; omega

/-- Point t's block of an index list, at (0, r): the list at 2048 t + r. -/
theorem read_blk0 (I : (⟨2, ![1, 602112]⟩ : Shape).Idx → BitVec 32) (t : Fin cfg0.N) (r : Fin 2048) :
    ((cfg0.win 0).blk t).view.read (Elt Ideal) I (ix2 (0 : Fin 1) r) = I (ix2 (0 : Fin 1) (⟨2048 * t.val + r.val, row_lt t r⟩ : Fin 602112)) := by
  obtain ⟨e00, e01, -⟩ := idx_facts t
  rw [View.read_apply]
  show I _ = I _
  refine congrArg I (funext fun a => Fin.ext ?_)
  match a with
  | ⟨0, _⟩ => show win0_0.index t (0 : Fin 2) * 1 + 1 * 0 = 0; rw [e00]
  | ⟨1, _⟩ => show win0_0.index t (1 : Fin 2) * 2048 + 1 * r.val = 2048 * t.val + r.val; rw [e01]; omega

theorem read_blk1 (I : (⟨2, ![1, 602112]⟩ : Shape).Idx → BitVec 32) (t : Fin cfg0.N) (r : Fin 2048) :
    ((cfg0.win 1).blk t).view.read (Elt Ideal) I (ix2 (0 : Fin 1) r) = I (ix2 (0 : Fin 1) (⟨2048 * t.val + r.val, row_lt t r⟩ : Fin 602112)) := by
  obtain ⟨-, -, e10, e11, -⟩ := idx_facts t
  rw [View.read_apply]
  show I _ = I _
  refine congrArg I (funext fun a => Fin.ext ?_)
  match a with
  | ⟨0, _⟩ => show win0_1.index t (0 : Fin 2) * 1 + 1 * 0 = 0; rw [e10]
  | ⟨1, _⟩ => show win0_1.index t (1 : Fin 2) * 2048 + 1 * r.val = 2048 * t.val + r.val; rw [e11]; omega

/-- Every point's table block is the whole table. -/
theorem read_blk2 (T : (⟨2, ![53248, 128]⟩ : Shape).Idx → EReal) (t : Fin cfg0.N) (n : Fin 53248) (d : Fin 128) :
    ((cfg0.win 2).blk t).view.read (Elt Ideal) T (ix2 n d) = T (ix2 n d) := by
  obtain ⟨-, -, -, -, e20, e21, -⟩ := idx_facts t
  rw [View.read_apply]
  show T _ = T _
  refine congrArg T (funext fun a => Fin.ext ?_)
  match a with
  | ⟨0, _⟩ => show win0_2.index t (0 : Fin 2) * 53248 + 1 * n.val = n.val; rw [e20]; omega
  | ⟨1, _⟩ => show win0_2.index t (1 : Fin 2) * 128 + 1 * d.val = d.val; rw [e21]; omega

/-- Point t's block of a result array, at (r, d): the array at (2048 t + r, d). -/
theorem read_blk3 (G : (⟨2, ![602112, 128]⟩ : Shape).Idx → EReal) (t : Fin cfg0.N) (r : Fin 2048) (d : Fin 128) :
    ((cfg0.win 3).blk t).view.read (Elt Ideal) G (ix2 r d) = G (ix2 (⟨2048 * t.val + r.val, row_lt t r⟩ : Fin 602112) d) := by
  obtain ⟨-, -, -, -, -, -, e30, e31, -⟩ := idx_facts t
  rw [View.read_apply]
  show G _ = G _
  refine congrArg G (funext fun a => Fin.ext ?_)
  match a with
  | ⟨0, _⟩ => show win0_3.index t (0 : Fin 2) * 2048 + 1 * r.val = 2048 * t.val + r.val; rw [e30]; omega
  | ⟨1, _⟩ => show win0_3.index t (1 : Fin 2) * 128 + 1 * d.val = d.val; rw [e31]; omega

theorem read_blk4 (G : (⟨2, ![602112, 128]⟩ : Shape).Idx → EReal) (t : Fin cfg0.N) (r : Fin 2048) (d : Fin 128) :
    ((cfg0.win 4).blk t).view.read (Elt Ideal) G (ix2 r d) = G (ix2 (⟨2048 * t.val + r.val, row_lt t r⟩ : Fin 602112) d) := by
  obtain ⟨-, -, -, -, -, -, -, -, e40, e41⟩ := idx_facts t
  rw [View.read_apply]
  show G _ = G _
  refine congrArg G (funext fun a => Fin.ext ?_)
  match a with
  | ⟨0, _⟩ => show win0_4.index t (0 : Fin 2) * 2048 + 1 * r.val = 2048 * t.val + r.val; rw [e40]; omega
  | ⟨1, _⟩ => show win0_4.index t (1 : Fin 2) * 128 + 1 * d.val = d.val; rw [e41]; omega

variable (V : (c : Dev nD) → (b : Ref sig .tc) → Buf (Elt Ideal) ((c : Thread nD τ).loc b))

/-- WHAT POINT t WRITES BACK through window 3 is block t of the row selection of the table by the first index list. -/
theorem flushed3_eq (c : Dev nD) (t : Fin cfg0.N) :
    (dat0 (F := Ideal) V c).flushed 3 t = ((cfg0.win 3).blk t).view.read (Elt Ideal) (Cert.Spec.gatherRows (V c main_v3) (V c main_v6)) := by
  show (cfg0.win 3).cut (grid0.coords t) ((dat0 V c).after 3 t) = _
  rw [after0_3]
  unfold outsAt0
  dsimp only
  rw [out3_eq]
  funext j
  obtain ⟨r, d, rfl⟩ : ∃ (r : Fin 2048) (d : Fin 128), j = ix2 r d := ⟨j 0, j 1, eq_ix2 j⟩
  refine (acc_full (k0_pay4 (iblk0 V c 0 t)) (iblk0 V c 0 t) (pay4_eq (F := Ideal) (iblk0 V c 0 t)) (k0_pay1 (F := Ideal)) pay1_zero (iblk0 V c 2 t) r d).trans ?_
  refine Eq.trans ?_ (read_blk3 (Cert.Spec.gatherRows (V c main_v3) (V c main_v6)) t r d).symm
  refine Eq.trans ?_ (gatherRows_apply (V c main_v3) (V c main_v6) _ d).symm
  refine Finset.sum_congr rfl fun n _ => ?_
  unfold iblk0
  rw [read_blk0 (V c main_v3) t r, read_blk2 (V c main_v6) t n d]

/-- WHAT POINT t WRITES BACK through window 4 is block t of the row selection of the table by the second index list. -/
theorem flushed4_eq (c : Dev nD) (t : Fin cfg0.N) :
    (dat0 (F := Ideal) V c).flushed 4 t = ((cfg0.win 4).blk t).view.read (Elt Ideal) (Cert.Spec.gatherRows (V c main_v4) (V c main_v6)) := by
  show (cfg0.win 4).cut (grid0.coords t) ((dat0 V c).after 4 t) = _
  rw [after0_4]
  unfold outsAt0
  dsimp only
  rw [out4_eq]
  funext j
  obtain ⟨r, d, rfl⟩ : ∃ (r : Fin 2048) (d : Fin 128), j = ix2 r d := ⟨j 0, j 1, eq_ix2 j⟩
  refine (acc_full (k0_pay5 (iblk0 V c 1 t)) (iblk0 V c 1 t) (pay5_eq (F := Ideal) (iblk0 V c 1 t)) (k0_pay2 (F := Ideal)) pay2_zero (iblk0 V c 2 t) r d).trans ?_
  refine Eq.trans ?_ (read_blk4 (Cert.Spec.gatherRows (V c main_v4) (V c main_v6)) t r d).symm
  refine Eq.trans ?_ (gatherRows_apply (V c main_v4) (V c main_v6) _ d).symm
  refine Finset.sum_congr rfl fun n _ => ?_
  unfold iblk0
  rw [read_blk1 (V c main_v4) t r, read_blk2 (V c main_v6) t n d]

/-- Row i of a 602112-row result lies in the block of point i / 2048. -/
theorem pt_lt (a : ℕ) (h : a < 602112) : a / 2048 < cfg0.N := by
  have hN := N0; omega

/-- The first result array after the run: the row selection of the table by the first index list. Every point writes
    its block back, and the 294 blocks of 2048 rows tile the 602112 rows. -/
theorem arr0_3 (c : Dev nD) :
    (dat0 (F := Ideal) V c).arrAt 3 cfg0.N = Cert.Spec.gatherRows (V c main_v3) (V c main_v6) :=
  (dat0 (F := Ideal) V c).arrAt_eq_of_cover 3 (Cert.Spec.gatherRows (V c main_v3) (V c main_v6)) (fun t _ => flushed3_eq V c t) fun i => by
    have h0 : (i 0 : Nat) < 602112 := (i 0).isLt
    have h1 : (i 1 : Nat) < 128 := (i 1).isLt
    obtain ⟨-, -, -, -, -, -, e30, e31, -⟩ := idx_facts ⟨(i 0 : Nat) / 2048, pt_lt _ h0⟩
    refine ⟨⟨(i 0 : Nat) / 2048, pt_lt _ h0⟩, flush0_3 _, ?_⟩
    show i ∈ ((View.whole main_v7_0).slice (win0_3.rect ⟨(i 0 : Nat) / 2048, pt_lt _ h0⟩)).set
    rw [View.set_slice_whole, Rect.mem_set_unit]
    intro a
    match a with
    | ⟨0, _⟩ =>
      show win0_3.index ⟨(i 0 : Nat) / 2048, pt_lt _ h0⟩ (0 : Fin 2) * 2048 ≤ (i 0 : Nat)
        ∧ (i 0 : Nat) < win0_3.index ⟨(i 0 : Nat) / 2048, pt_lt _ h0⟩ (0 : Fin 2) * 2048 + 2048
      rw [e30]; dsimp only; omega
    | ⟨1, _⟩ =>
      show win0_3.index ⟨(i 0 : Nat) / 2048, pt_lt _ h0⟩ (1 : Fin 2) * 128 ≤ (i 1 : Nat)
        ∧ (i 1 : Nat) < win0_3.index ⟨(i 0 : Nat) / 2048, pt_lt _ h0⟩ (1 : Fin 2) * 128 + 128
      rw [e31]; omega

/-- The second result array after the run: the row selection of the table by the second index list. -/
theorem arr0_4 (c : Dev nD) :
    (dat0 (F := Ideal) V c).arrAt 4 cfg0.N = Cert.Spec.gatherRows (V c main_v4) (V c main_v6) :=
  (dat0 (F := Ideal) V c).arrAt_eq_of_cover 4 (Cert.Spec.gatherRows (V c main_v4) (V c main_v6)) (fun t _ => flushed4_eq V c t) fun i => by
    have h0 : (i 0 : Nat) < 602112 := (i 0).isLt
    have h1 : (i 1 : Nat) < 128 := (i 1).isLt
    obtain ⟨-, -, -, -, -, -, -, -, e40, e41⟩ := idx_facts ⟨(i 0 : Nat) / 2048, pt_lt _ h0⟩
    refine ⟨⟨(i 0 : Nat) / 2048, pt_lt _ h0⟩, flush0_4 _, ?_⟩
    show i ∈ ((View.whole main_v7_1).slice (win0_4.rect ⟨(i 0 : Nat) / 2048, pt_lt _ h0⟩)).set
    rw [View.set_slice_whole, Rect.mem_set_unit]
    intro a
    match a with
    | ⟨0, _⟩ =>
      show win0_4.index ⟨(i 0 : Nat) / 2048, pt_lt _ h0⟩ (0 : Fin 2) * 2048 ≤ (i 0 : Nat)
        ∧ (i 0 : Nat) < win0_4.index ⟨(i 0 : Nat) / 2048, pt_lt _ h0⟩ (0 : Fin 2) * 2048 + 2048
      rw [e40]; dsimp only; omega
    | ⟨1, _⟩ =>
      show win0_4.index ⟨(i 0 : Nat) / 2048, pt_lt _ h0⟩ (1 : Fin 2) * 128 ≤ (i 1 : Nat)
        ∧ (i 1 : Nat) < win0_4.index ⟨(i 0 : Nat) / 2048, pt_lt _ h0⟩ (1 : Fin 2) * 128 + 128
      rw [e41]; omega

end Cert.KernelIdeal.GatherValue

end
-- ==== Proof.LibBlockSum.lean ====
/-
  Sums by blocks, in a commutative additive monoid (the extended reals are one).

  A sum over `a * b` consecutive indices is the sum over `a` blocks of the sums over each block's
  `b` indices, the index of block `t` at offset `y` being `b * t + y` (`sum_blocks`; the instance
  at 25 blocks of 2000, stated at the literal 50000, is `sum_blocks_50000`). An accumulator that
  starts as `0 + s 0` and adds `s (n + 1)` at each step holds, after step `n`, the sum of
  `s 0, …, s n` (`acc_eq_sum`; over a finite run of steps, `acc_eq_sum_fin`).
-/
import Mathlib.Algebra.BigOperators.Fin
import Mathlib.Algebra.BigOperators.Group.Finset.Basic
import Mathlib.Data.Fintype.BigOperators
import Mathlib.Logic.Equiv.Fin.Basic
import Mathlib.Tactic.Ring

open scoped BigOperators

namespace Cert.Lib.BlockSum

/-- The index of block `t` at offset `y`, among `a` blocks of `b`, is below `a * b`. -/
theorem block_lt {a b : ℕ} (t : Fin a) (y : Fin b) : b * t.val + y.val < a * b :=
  calc b * t.val + y.val < b * t.val + b := Nat.add_lt_add_left y.isLt _
    _ = b * (t.val + 1) := (Nat.mul_succ b t.val).symm
    _ ≤ b * a := Nat.mul_le_mul_left b t.isLt
    _ = a * b := Nat.mul_comm b a

/-- A sum over `a * b` indices is the sum over `a` blocks of the sums over each block's `b`
    indices; block `t` at offset `y` is the index `b * t + y`. -/
theorem sum_blocks {M : Type*} [AddCommMonoid M] (a b : ℕ) (f : Fin (a * b) → M) :
    ∑ t : Fin a, ∑ y : Fin b, f ⟨b * t.val + y.val, block_lt t y⟩ = ∑ r : Fin (a * b), f r := by
  have h := (finProdFinEquiv (m := a) (n := b)).sum_comp f
  rw [← h, Fintype.sum_prod_type]
  refine Finset.sum_congr rfl fun t _ => Finset.sum_congr rfl fun y _ => ?_
  congr 1
  apply Fin.ext
  simp only [finProdFinEquiv_apply_val]
  exact Nat.add_comm _ _

/-- A sum over 50000 indices is the sum over 25 blocks of 2000; block `t` at offset `y` is the
    index `2000 * t + y`. -/
theorem sum_blocks_50000 {M : Type*} [AddCommMonoid M] (f : Fin 50000 → M) :
    ∑ t : Fin 25, ∑ y : Fin 2000, f ⟨2000 * t.val + y.val, by omega⟩ = ∑ r : Fin 50000, f r :=
  sum_blocks 25 2000 f

/-- An accumulator that starts as `0 + s 0` and adds `s (n + 1)` at step `n + 1` holds after step
    `n` the sum of `s 0, …, s n`. -/
theorem acc_eq_sum {M : Type*} [AddCommMonoid M] (s : ℕ → M) (S : ℕ → M) (h0 : S 0 = 0 + s 0)
    (hs : ∀ n, S (n + 1) = S n + s (n + 1)) (n : ℕ) : S n = ∑ t ∈ Finset.range (n + 1), s t := by
  induction n with
  | zero => rw [h0, zero_add, Finset.sum_range_one]
  | succ n ih => rw [hs, ih, Finset.sum_range_succ _ (n + 1)]

/-- The same over a finite run of `N + 1` steps: the accumulator's last value is the sum of all
    the steps' terms. -/
theorem acc_eq_sum_fin {M : Type*} [AddCommMonoid M] (N : ℕ) (s : Fin (N + 1) → M)
    (S : Fin (N + 1) → M) (h0 : S 0 = 0 + s 0)
    (hs : ∀ (n : ℕ) (h : n + 1 < N + 1), S ⟨n + 1, h⟩ = S ⟨n, by omega⟩ + s ⟨n + 1, h⟩) :
    S (Fin.last N) = ∑ t : Fin (N + 1), s t := by
  have key : ∀ (n : ℕ) (h : n < N + 1),
      S ⟨n, h⟩ = ∑ t ∈ Finset.range (n + 1), (if h' : t < N + 1 then s ⟨t, h'⟩ else 0) := by
    intro n
    induction n with
    | zero =>
      intro h
      rw [Finset.sum_range_one, dif_pos h]
      rw [zero_add] at h0
      exact h0
    | succ n ih =>
      intro h
      rw [hs n h, ih (by omega), Finset.sum_range_succ _ (n + 1), dif_pos h]
  have hN := key N (Nat.lt_succ_self N)
  have hr := Fin.sum_univ_eq_sum_range (fun t => if h' : t < N + 1 then s ⟨t, h'⟩ else 0) (N + 1)
  rw [show Fin.last N = ⟨N, Nat.lt_succ_self N⟩ from rfl, hN, ← hr]
  refine Finset.sum_congr rfl fun t _ => ?_
  rw [dif_pos t.isLt]

end Cert.Lib.BlockSum
-- ==== Proof.Scatter1.lean ====
import proofs.«407194_j57183194579314_3_alg».proof.Proof.Spec
import proofs.«407194_j57183194579314_3_alg».proof.Proof.Gen.KernelIdeal.Frame
import Idealize.ShloMosaic.Lib.Pipeline.Value
import Idealize.ShloMosaic.Lib.Tactic
import proofs.«407194_j57183194579314_3_alg».proof.Proof.LibOneHot
import proofs.«407194_j57183194579314_3_alg».proof.Proof.LibBlockSum
import Idealize.ShloMosaic.Lib.WritesUnit
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.ScatterValue1

open Cert.KernelIdeal Cert.KernelIdeal.Gen

variable (V : (c : Dev nD) → (b : Ref sig .tc) → Buf (Elt Ideal) ((c : Thread nD τ).loc b))

/-!
The second region adds, for every node `n` and feature `d`, the gathered rows of the list positions whose index word
is `n`: `∑ k, hot n (idx k) * gathered (k, d)` over the 602112 positions of the padded list. The grid is 4 groups of
147 points; group `g` owns nodes `13312 g … 13312 g + 13311` (one output block, carried across the group's points and
written back at its last point), and point `e` of a group handles list positions `4096 e … 4096 e + 4095`. Within a
point, thirteen trips of 1024 rows each compare the rows' node numbers with the point's 4096 index words, and add the
product of that 0/1 matrix with the point's gathered block into the rows.
-/

section Steps

open Idealize.ShloMosaic.ValueIdx

/-! ## One trip of the row loop: a one-hot matrix times the gathered block

Trip `k` of the body's loop handles the 1024 block rows `1024 k, …, 1024 k + 1023`. The word of block row
`1024 k + r` in group `g` is the node number `13312 g + 1024 k + r`; the trip compares it with each of the 4096
index words of the point's index block, turns the equality bit into the real `1` or `0`, and multiplies the
resulting 1024 × 4096 matrix with the 4096 × 128 gathered block: entry `(r, d)` of the product is the sum over the
list positions `j` of the block of `hot (word r) (index j) * gathered (j, d)`. -/

/-- Row `w`'s sum over one index block `v` and one gathered block `x`: the products of the one-hot weights with
    column `d` of the gathered block. -/
def hotRow (v : Vec Ideal S1x4096 .i32) (x : Vec Ideal S4096x128 .bf16) (w : BitVec 32) (d : Fin 128) : EReal :=
  ∑ j : Fin 4096, Cert.Spec.hot w (v (ix2 (0 : Fin 1) j)) * x (ix2 j d)

/-- A product of a 1024 × 4096 by a 4096 × 128 matrix into the zero matrix, at an entry: the sum over the
    contracted coordinate. -/
theorem matmul_at (A : FVec Ideal S1024x4096 .bf16) (B : FVec Ideal S4096x128 .bf16) (r : Fin 1024) (d : Fin 128) :
    matmul dot_S1024x4096_S4096x128_S1024x128_1_0_0_1_n_n none A B (constant (F := Ideal) S1024x128 .f32 0x00000000#32) (ix2 r d)
      = ∑ j : Fin 4096, A (ix2 r j) * B (ix2 j d) := by
  show FloatOps.matmul _ none A B _ (ix2 r d) = _
  rw [Ideal.matmul_constant_zero_apply,
    ← Equiv.sum_comp (contrEquiv1 dot_S1024x4096_S4096x128_S1024x128_1_0_0_1_n_n 4096 rfl rfl).symm]
  refine Finset.sum_congr rfl fun c _ => ?_
  have cv := contrEquiv1_symm_val dot_S1024x4096_S4096x128_S1024x128_1_0_0_1_n_n 4096 rfl rfl c
  have el : dot_S1024x4096_S4096x128_S1024x128_1_0_0_1_n_n.lhsIdx (ix2 r d)
      ((contrEquiv1 _ 4096 rfl rfl).symm c) = ix2 r c := by
    funext ax; apply Fin.ext
    match ax with
    | ⟨0, _⟩ => simp [DotDims.lhsIdx, dot_S1024x4096_S4096x128_S1024x128_1_0_0_1_n_n]; rfl
    | ⟨1, _⟩ => simp [DotDims.lhsIdx, dot_S1024x4096_S4096x128_S1024x128_1_0_0_1_n_n]; exact cv
  have er : dot_S1024x4096_S4096x128_S1024x128_1_0_0_1_n_n.rhsIdx (ix2 r d)
      ((contrEquiv1 _ 4096 rfl rfl).symm c) = ix2 c d := by
    funext ax; apply Fin.ext
    match ax with
    | ⟨0, _⟩ => simp [DotDims.rhsIdx, dot_S1024x4096_S4096x128_S1024x128_1_0_0_1_n_n]; exact cv
    | ⟨1, _⟩ => simp [DotDims.rhsIdx, dot_S1024x4096_S4096x128_S1024x128_1_0_0_1_n_n]; rfl
  rw [el, er]

/-- The equality bit of two words, widened and converted to a real, is the one-hot weight. -/
theorem bit_real (a b : BitVec 32) :
    (FloatOps.sitofp (F := Ideal) .f32 ((IntOp.cmpi .eq a b).setWidth 32) : EReal) = Cert.Spec.hot a b := by
  show ((((IntOp.cmpi .eq a b).setWidth 32).toInt : ℝ) : EReal) = _
  rw [Cert.Lib.OneHot.eqBit_toInt]
  unfold Cert.Spec.hot
  by_cases h : a = b
  · rw [if_pos h, if_pos h]; simp
  · rw [if_neg h, if_neg h]; simp

/-- Entry `(r, j)` of the trip's 0/1 matrix: the weight of the row word `r + w` (the row number in the trip plus
    the trip's first node number) against index word `j`. -/
theorem onehot_at (v : Vec Ideal S1x4096 .i32) (w : BitVec 32) (r : Fin 1024) (j : Fin 4096) :
    (truncf (F := Ideal) .bf16 (sitofp (F := Ideal) .f32 (extui 32 (cmpi .eq
        (broadcastTo S1024x4096 (addi (iota .tc S1024x1 32 [0] iota_S1024x1_d0_w32) (broadcast S1024x1 w)) broadcasts_S1024x1_S1024x4096)
        (broadcastTo S1024x4096 (shapeCast S1x4096 (shapeCast S4096 v shapeCasts_S1x4096_S4096) shapeCasts_S4096_S1x4096) broadcasts_S1x4096_S1024x4096))
        natLt_1_32)) bitsLt_bf16_f32) (ix2 r j)
      = Cert.Spec.hot (BitVec.ofNat 32 r.val + w) (v (ix2 (0 : Fin 1) j)) := by
  refine Eq.trans ?_ (bit_real _ _)
  show FloatOps.sitofp (F := Ideal) .f32 ((IntOp.cmpi .eq _ _).setWidth 32) = _
  have ePos : broadcastTo S1024x4096 (addi (iota .tc S1024x1 32 [0] iota_S1024x1_d0_w32) (broadcast S1024x1 w)) broadcasts_S1024x1_S1024x4096 (ix2 r j)
      = BitVec.ofNat 32 r.val + w := by
    refine (broadcastTo_apply _ _ (ix2 r j) (ix2 r (0 : Fin 1)) fun a => ?_).trans ?_
    · match a with
      | ⟨0, _⟩ => rfl
      | ⟨1, _⟩ => rfl
    · show IntOp.addi (iota .tc S1024x1 32 [0] iota_S1024x1_d0_w32 (ix2 r (0 : Fin 1))) w = _
      rw [iota_single_apply]
      rfl
  have eNode : broadcastTo S1024x4096 (shapeCast S1x4096 (shapeCast S4096 v shapeCasts_S1x4096_S4096) shapeCasts_S4096_S1x4096) broadcasts_S1x4096_S1024x4096 (ix2 r j)
      = v (ix2 (0 : Fin 1) j) := by
    refine (broadcastTo_apply _ _ (ix2 r j) (ix2 (0 : Fin 1) j) fun a => ?_).trans ?_
    · match a with
      | ⟨0, _⟩ => rfl
      | ⟨1, _⟩ => rfl
    · exact congrFun (shapeCast_shapeCast v _ _) _
  rw [ePos, eNode]

/-- The node number of block row `1024 k + r` in group `g`, as the body computes it in 32-bit words. -/
theorem word_eq (g k r : ℕ) :
    BitVec.ofNat 32 r + Scalar.addi (Scalar.muli (BitVec.ofNat 32 g) 13312#32) (Scalar.muli (Scf.iv 0#32 1#32 k) 1024#32)
      = BitVec.ofNat 32 (13312 * g + 1024 * k + r) := by
  apply BitVec.eq_of_toNat_eq
  simp only [Scalar.addi, Scalar.muli, IntOp.addi, IntOp.muli, Scf.iv, BitVec.toNat_add, BitVec.toNat_mul, BitVec.toNat_ofNat]
  omega

/-- WHAT ONE TRIP STORES, at an entry: the rows it loaded plus the one-hot product. -/
theorem pay_at (i : grid1.Coords) (v4 : Vec Ideal S1x4096 .i32) (v6 : Vec Ideal S4096x128 .bf16)
    (k : Fin k1_t1_loop.trips) (v24 : Vec Ideal S1024x128 .f32) (r : Fin 1024) (d : Fin 128) :
    (k1_pay2 (F := Ideal) i v4 v6 k v24 (ix2 r d) : EReal)
      = v24 (ix2 r d) + hotRow v4 v6 (BitVec.ofNat 32 (13312 * (i 0).val + 1024 * k.val + r.val)) d := by
  unfold k1_pay2 hotRow
  dsimp only
  refine (addf_apply _ _ _).trans ?_
  refine congrArg₂ (· + ·) (congrFun (shapeCast_self v24 _) _) ?_
  refine (matmul_at _ _ r d).trans ?_
  refine Finset.sum_congr rfl fun j _ => ?_
  refine congrArg₂ (· * ·) ((onehot_at v4 _ r j).trans ?_) (congrFun (shapeCast_self v6 _) _)
  rw [word_eq]

/-! ## The thirteen trips of one point

The trips store into disjoint bands of rows — trip `k` into rows `1024 k … 1024 k + 1023` — and each loads the
band it is about to store before any store has touched it. So after `n` trips a row below `1024 n` holds what the
buffer held on entry plus the row's one-hot sum, and a row from `1024 n` on is as it was. -/

theorem hz : (![0, 0] : Fin 2 → Nat) = fun _ => 0 := funext fun a => by fin_cases a <;> rfl

theorem trips_eq : k1_t1_loop.trips = 13 := by decide

/-- The one piece a trip stores: through the rows of the trip, what it loaded there plus the one-hot product. -/
theorem tripL_eq (𝒱 : Variants) (c : Dev nD) (bd : Option 𝒱.V) (i : grid1.Coords)
    (arg2 : Memref sig .tc .vmem S1x4096 .i32) (harg2 : arg2.IsWhole) (arg3 : Memref sig .tc .vmem S4096x128 .bf16) (harg3 : arg3.IsWhole)
    (arg4 : Memref sig .tc .vmem S13312x128 .f32) (harg4 : arg4.IsWhole)
    (v4 : Vec Ideal S1x4096 .i32) (v6 : Vec Ideal S4096x128 .bf16) (k : Fin k1_t1_loop.trips)
    (f : BufTy.Contents (Elt Ideal) arg4.view.ty) :
    tripL_k1_t1 (F := Ideal) 𝒱 c bd i arg2 harg2 arg3 harg3 arg4 harg4 v4 v6 k f
      = [⟨Rect.unit (s := S13312x128) (k1_off1 k) S1024x128.size (k1_off1_inb k),
          k1_pay2 (F := Ideal) i v4 v6 k
            (arg4.view.readAt (Elt Ideal) (Rect.unit (s := S13312x128) (k1_off1 k) S1024x128.size (k1_off1_inb k)).toLoadRect f)⟩] := by
  unfold tripL_k1_t1 trip_k1_t1
  rfl

/-- THE BUFFER AFTER `n` TRIPS, read through any view over any earlier contents, at row `a` and column `b`. -/
theorem walk (𝒱 : Variants) (c : Dev nD) (bd : Option 𝒱.V) (i : grid1.Coords)
    (arg2 : Memref sig .tc .vmem S1x4096 .i32) (harg2 : arg2.IsWhole) (arg3 : Memref sig .tc .vmem S4096x128 .bf16) (harg3 : arg3.IsWhole)
    (arg4 : Memref sig .tc .vmem S13312x128 .f32) (harg4 : arg4.IsWhole)
    (v4 : Vec Ideal S1x4096 .i32) (v6 : Vec Ideal S4096x128 .bf16) (G : BufTy.Contents (Elt Ideal) arg4.view.ty) :
    ∀ (n : ℕ), n ≤ 13 → ∀ (v : View sig .tc .vmem S13312x128 .f32) (f : v.ty.Contents (Elt Ideal)) (a : Fin 13312) (b : Fin 128),
      (v.read (Elt Ideal) (v.writes (Elt Ideal) f
          (pb_k1_t1 (F := Ideal) 𝒱 c bd i arg2 harg2 arg3 harg3 arg4 harg4 v4 v6 G n)) (ix2 a b) : EReal)
        = if a.val < 1024 * n then
            (arg4.view.read (Elt Ideal) G (ix2 a b) : EReal) + hotRow v4 v6 (BitVec.ofNat 32 (13312 * (i 0).val + a.val)) b
          else v.read (Elt Ideal) f (ix2 a b)
  | 0, _, v, f, a, b => by
    rw [if_neg (by omega)]; rfl
  | n + 1, hn, v, f, a, b => by
    have hk : n < k1_t1_loop.trips := by rw [trips_eq]; omega
    have hs := pb_k1_t1_succ (F := Ideal) 𝒱 c bd i arg2 harg2 arg3 harg3 arg4 harg4 v4 v6 G ⟨n, hk⟩
    rw [show (⟨n, hk⟩ : Fin k1_t1_loop.trips).val + 1 = n + 1 from rfl, tripL_eq, List.singleton_append] at hs
    rw [hs]
    by_cases hin : 1024 * n ≤ a.val ∧ a.val < 1024 * n + 1024
    · have hr : a.val - 1024 * n < 1024 := by omega
      refine (View.read_writes_cons_rows_of_mem v f (k1_off1_inb ⟨n, hk⟩) _ _ (ix2 a b) (ix2 (⟨a.val - 1024 * n, hr⟩ : Fin 1024) b)
        (k1_off1_eq ⟨n, hk⟩) (by show a.val = 1024 * n + (a.val - 1024 * n); omega) rfl).trans ?_
      refine (pay_at i v4 v6 ⟨n, hk⟩ _ ⟨a.val - 1024 * n, hr⟩ b).trans ?_
      rw [if_pos (by omega)]
      refine congrArg₂ (· + ·) ?_ ?_
      · rw [View.readAt_eq_ld]
        show arg4.view.read (Elt Ideal) _ ((Rect.unit (s := S13312x128) (k1_off1 ⟨n, hk⟩) S1024x128.size (k1_off1_inb ⟨n, hk⟩)).emb
          (ix2 (⟨a.val - 1024 * n, hr⟩ : Fin 1024) b)) = _
        have he : (Rect.unit (s := S13312x128) (k1_off1 ⟨n, hk⟩) S1024x128.size (k1_off1_inb ⟨n, hk⟩)).emb
            (ix2 (⟨a.val - 1024 * n, hr⟩ : Fin 1024) b) = ix2 a b := by
          funext ax; apply Fin.ext
          match ax with
          | ⟨0, _⟩ =>
            show k1_off1 ⟨n, hk⟩ 0 + 1 * (a.val - 1024 * n) = a.val
            rw [k1_off1_eq]
            show 1024 * n + 1 * (a.val - 1024 * n) = a.val
            omega
          | ⟨1, _⟩ =>
            show k1_off1 ⟨n, hk⟩ 1 + 1 * b.val = b.val
            rw [k1_off1_eq]
            show 0 + 1 * b.val = b.val
            omega
        rw [he, walk 𝒱 c bd i arg2 harg2 arg3 harg3 arg4 harg4 v4 v6 G n (by omega) arg4.view G a b, if_neg (by omega)]
      · show hotRow v4 v6 (BitVec.ofNat 32 (13312 * (i 0).val + 1024 * n + (a.val - 1024 * n))) b = _
        rw [show 13312 * (i 0).val + 1024 * n + (a.val - 1024 * n) = 13312 * (i 0).val + a.val by omega]
    · refine (View.read_writes_cons_rows_of_not_mem v f (k1_off1_inb ⟨n, hk⟩) _ _ (ix2 a b) (k1_off1_eq ⟨n, hk⟩)
        (show S1024x128.size (0 : Fin 2) = 1024 from rfl) (by show a.val < 1024 * n ∨ 1024 * n + 1024 ≤ a.val; omega)).trans ?_
      rw [walk 𝒱 c bd i arg2 harg2 arg3 harg3 arg4 harg4 v4 v6 G n (by omega) v f a b]
      by_cases hlow : a.val < 1024 * n
      · rw [if_pos hlow, if_pos (by omega)]
      · rw [if_neg hlow, if_neg (by omega)]

/-! ## One grid point

A point of a group that is not the group's first adds to what the output block held; the group's first point
stores the zero block first, so it leaves the one-hot sums alone. -/

theorem trips_lit : Scf.trips (0#32) (Scalar.addi 0#32 13#32) 1#32 = 13 := by decide

/-- The pieces of a point that is not the first of its group: the thirteen trips' over the block it found. -/
theorem runB_eq (c : Dev nD) (i : grid1.Coords) (arg2 : Memref sig .tc .vmem S1x4096 .i32) (harg2 : arg2.IsWhole)
    (arg3 : Memref sig .tc .vmem S4096x128 .bf16) (harg3 : arg3.IsWhole) (arg4 : Memref sig .tc .vmem S13312x128 .f32)
    (harg4 : arg4.IsWhole) (hc0 : ¬cond1_0 i) (xi : Vec Ideal S1x4096 .i32) (xg : Vec Ideal S4096x128 .bf16)
    (xo2 : Vec Ideal S13312x128 .f32) :
    (kernelRun1_B (F := Ideal) c i arg2 harg2 arg3 harg3 arg4 harg4 hc0 xi xg xo2).1
      = pb_k1_t1 (F := Ideal) Variants.none c none i arg2 harg2 arg3 harg3 arg4 harg4 xi xg (harg4.unread xo2) 13 := by
  unfold kernelRun1_B
  dsimp only
  simp only [View.readAt_eq_ld, harg2.read_unread, harg3.read_unread, View.ld_unit_zero (S := S1x4096) hz,
    View.ld_unit_zero (S := S4096x128) hz, trips_lit]

/-- What such a point leaves at row `a`, column `b` of the block: what it found there plus the row's one-hot sum
    over the point's index and gathered blocks. -/
theorem out_B (c : Dev nD) (i : grid1.Coords) (arg2 : Memref sig .tc .vmem S1x4096 .i32) (harg2 : arg2.IsWhole)
    (arg3 : Memref sig .tc .vmem S4096x128 .bf16) (harg3 : arg3.IsWhole) (arg4 : Memref sig .tc .vmem S13312x128 .f32)
    (harg4 : arg4.IsWhole) (hc0 : ¬cond1_0 i) (xi : Vec Ideal S1x4096 .i32) (xg : Vec Ideal S4096x128 .bf16)
    (xo2 : Vec Ideal S13312x128 .f32) (a : Fin 13312) (b : Fin 128) :
    (out1_B_2 (F := Ideal) c i arg2 harg2 arg3 harg3 arg4 harg4 hc0 xi xg xo2 (ix2 a b) : EReal)
      = xo2 (ix2 a b) + hotRow xi xg (BitVec.ofNat 32 (13312 * (i 0).val + a.val)) b := by
  unfold out1_B_2
  rw [runB_eq]
  refine (walk Variants.none c none i arg2 harg2 arg3 harg3 arg4 harg4 xi xg (harg4.unread xo2) 13 (le_refl _)
    VO1_2 VO1_2.junk a b).trans ?_
  rw [if_pos (by have := a.isLt; omega), harg4.read_unread]

/-- The pieces of a group's first point: the zero block stored first, then the thirteen trips' over it. -/
theorem runA_eq (c : Dev nD) (i : grid1.Coords) (arg2 : Memref sig .tc .vmem S1x4096 .i32) (harg2 : arg2.IsWhole)
    (arg3 : Memref sig .tc .vmem S4096x128 .bf16) (harg3 : arg3.IsWhole) (arg4 : Memref sig .tc .vmem S13312x128 .f32)
    (harg4 : arg4.IsWhole) (hc0 : cond1_0 i) (xi : Vec Ideal S1x4096 .i32) (xg : Vec Ideal S4096x128 .bf16) :
    (kernelRun1_A (F := Ideal) c i arg2 harg2 arg3 harg3 arg4 harg4 hc0 xi xg).1
      = pb_k1_t1 (F := Ideal) Variants.none c none i arg2 harg2 arg3 harg3 arg4 harg4 xi xg
          (arg4.view.writes (Elt Ideal) arg4.view.junk
            [⟨Rect.unit (s := S13312x128) ![0, 0] S13312x128.size inb_S13312x128_S13312x128_0_0, k1_pay1 (F := Ideal)⟩]) 13
        ++ [⟨Rect.unit (s := S13312x128) ![0, 0] S13312x128.size inb_S13312x128_S13312x128_0_0, k1_pay1 (F := Ideal)⟩] := by
  unfold kernelRun1_A
  dsimp only
  sl_unfold_words
  simp only [View.readAt_eq_ld, harg2.read_unread, harg3.read_unread, View.ld_unit_zero (S := S1x4096) hz,
    View.ld_unit_zero (S := S4096x128) hz, trips_lit]

/-- A buffer into which the zero block was stored whole reads zero everywhere. -/
theorem zeroed_at (v : View sig .tc .vmem S13312x128 .f32) (f : v.ty.Contents (Elt Ideal)) (a : Fin 13312) (b : Fin 128) :
    (v.read (Elt Ideal) (v.writes (Elt Ideal) f
      [⟨Rect.unit (s := S13312x128) ![0, 0] S13312x128.size inb_S13312x128_S13312x128_0_0, k1_pay1 (F := Ideal)⟩]) (ix2 a b) : EReal) = 0 := by
  refine (View.read_writes_cons_rows_of_mem v f inb_S13312x128_S13312x128_0_0 _ [] (ix2 a b) (ix2 a b) rfl
    (by show a.val = 0 + a.val; omega) rfl).trans ?_
  exact Ideal.ofBits_zero_f32

/-- What a group's first point leaves at row `a`, column `b`: zero plus the row's one-hot sum. -/
theorem out_A (c : Dev nD) (i : grid1.Coords) (arg2 : Memref sig .tc .vmem S1x4096 .i32) (harg2 : arg2.IsWhole)
    (arg3 : Memref sig .tc .vmem S4096x128 .bf16) (harg3 : arg3.IsWhole) (arg4 : Memref sig .tc .vmem S13312x128 .f32)
    (harg4 : arg4.IsWhole) (hc0 : cond1_0 i) (xi : Vec Ideal S1x4096 .i32) (xg : Vec Ideal S4096x128 .bf16)
    (a : Fin 13312) (b : Fin 128) :
    (out1_A_2 (F := Ideal) c i arg2 harg2 arg3 harg3 arg4 harg4 hc0 xi xg (ix2 a b) : EReal)
      = 0 + hotRow xi xg (BitVec.ofNat 32 (13312 * (i 0).val + a.val)) b := by
  unfold out1_A_2
  rw [runA_eq, View.writes_append]
  refine (walk Variants.none c none i arg2 harg2 arg3 harg3 arg4 harg4 xi xg
    (arg4.view.writes (Elt Ideal) arg4.view.junk
      [⟨Rect.unit (s := S13312x128) ![0, 0] S13312x128.size inb_S13312x128_S13312x128_0_0, k1_pay1 (F := Ideal)⟩])
    13 (le_refl _) VO1_2
    (VO1_2.writes (Elt Ideal) VO1_2.junk
      [⟨Rect.unit (s := S13312x128) ![0, 0] S13312x128.size inb_S13312x128_S13312x128_0_0, k1_pay1 (F := Ideal)⟩])
    a b).trans ?_
  rw [if_pos (by have := a.isLt; omega), zeroed_at]

/-! ## The 147 points of a group

Point `t = 147 g + e` reads index block `e` (list positions `4096 e … 4096 e + 4095`) and gathered block `e`, and
works on output block `g` (nodes `13312 g … 13312 g + 13311`). -/

/-- The printed index maps and the grid's coordinates, decided over the grid. -/
theorem idx_facts : ∀ t : Fin cfg1.N,
    win1_0.index t (0 : Fin 2) = 0 ∧ win1_0.index t (1 : Fin 2) = t.val % 147
    ∧ win1_1.index t (0 : Fin 2) = t.val % 147 ∧ win1_1.index t (1 : Fin 2) = 0
    ∧ win1_2.index t (0 : Fin 2) = t.val / 147 ∧ win1_2.index t (1 : Fin 2) = 0
    ∧ (grid1.coords t 0).val = t.val / 147 :=
  (by decide +kernel : ∀ t : Fin grid1.N,
    win1_0.index t (0 : Fin 2) = 0 ∧ win1_0.index t (1 : Fin 2) = t.val % 147
    ∧ win1_1.index t (0 : Fin 2) = t.val % 147 ∧ win1_1.index t (1 : Fin 2) = 0
    ∧ win1_2.index t (0 : Fin 2) = t.val / 147 ∧ win1_2.index t (1 : Fin 2) = 0
    ∧ (grid1.coords t 0).val = t.val / 147)

/-- The point's index block and gathered block, as vectors of their literal shapes. -/
abbrev idxBlk (c : Dev nD) (t : Fin cfg1.N) : Vec Ideal S1x4096 .i32 := iblk1 V c 0 t
abbrev gatBlk (c : Dev nD) (t : Fin cfg1.N) : Vec Ideal S4096x128 .bf16 := iblk1 V c 1 t

theorem pos_lt (t : Fin cfg1.N) (j : Fin 4096) : 4096 * (t.val % 147) + j.val < 602112 := by
  have := j.isLt; omega

/-- Index word `j` of the point's block is list position `4096 e + j`. -/
theorem idxBlk_at (c : Dev nD) (t : Fin cfg1.N) (j : Fin 4096) :
    idxBlk V c t (ix2 (0 : Fin 1) j) = V c main_v4 (ix2 (0 : Fin 1) (⟨4096 * (t.val % 147) + j.val, pos_lt t j⟩ : Fin 602112)) := by
  unfold idxBlk iblk1
  rw [View.read_apply]
  show V c main_v4 _ = V c main_v4 _
  congr 1
  funext ax; apply Fin.ext
  match ax with
  | ⟨0, _⟩ =>
    show win1_0.index t (0 : Fin 2) * 1 + 1 * 0 = 0
    rw [(idx_facts t).1]
  | ⟨1, _⟩ =>
    show win1_0.index t (1 : Fin 2) * 4096 + 1 * j.val = 4096 * (t.val % 147) + j.val
    rw [(idx_facts t).2.1]; omega

/-- Row `j` of the point's gathered block is list position `4096 e + j`. -/
theorem gatBlk_at (c : Dev nD) (t : Fin cfg1.N) (j : Fin 4096) (d : Fin 128) :
    gatBlk V c t (ix2 j d) = V c main_v7_0 (ix2 (⟨4096 * (t.val % 147) + j.val, pos_lt t j⟩ : Fin 602112) d) := by
  unfold gatBlk iblk1
  rw [View.read_apply]
  show V c main_v7_0 _ = V c main_v7_0 _
  congr 1
  funext ax; apply Fin.ext
  match ax with
  | ⟨0, _⟩ =>
    show win1_1.index t (0 : Fin 2) * 4096 + 1 * j.val = 4096 * (t.val % 147) + j.val
    rw [(idx_facts t).2.2.1]; omega
  | ⟨1, _⟩ =>
    show win1_1.index t (1 : Fin 2) * 128 + 1 * d.val = d.val
    rw [(idx_facts t).2.2.2.1]; omega

/-- Point `n`'s addend to its output block: the one-hot sums of the block's rows over the point's index and gathered
    blocks (zero past the grid, where it is never used). -/
def addend (c : Dev nD) (n : ℕ) (y : S13312x128.Idx) : EReal :=
  if h : n < cfg1.N then
    hotRow (idxBlk V c ⟨n, h⟩) (gatBlk V c ⟨n, h⟩) (BitVec.ofNat 32 (13312 * (n / 147) + (y 0).val)) ⟨(y 1).val, idx2_lt1 y⟩
  else 0

/-- The first point of a group leaves zero plus its addend. -/
theorem outsAt_reset (c : Dev nD) (n : ℕ) (h : n < cfg1.N) (h0 : n % 147 = 0) :
    (outsAt1 V c n h : S13312x128.Idx → EReal) = fun y => 0 + addend V c n y := by
  funext y
  obtain ⟨a, b, rfl⟩ : ∃ (a : Fin 13312) (b : Fin 128), y = ix2 a b := ⟨y 0, y 1, eq_ix2 y⟩
  rw [outsAt1_A V c ⟨n, h⟩ h0]
  refine (out_A c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩)
    ((hcond1_0 ⟨n, h⟩).mpr h0) (iblk1 V c 0 ⟨n, h⟩) (iblk1 V c 1 ⟨n, h⟩) a b).trans ?_
  unfold addend
  rw [dif_pos h, (idx_facts ⟨n, h⟩).2.2.2.2.2.2]

/-- Every other point adds its addend to what the point before left. -/
theorem outsAt_step (c : Dev nD) (n : ℕ) (h : n + 1 < cfg1.N) (hne : ¬(n + 1) % 147 = 0) :
    (outsAt1 V c (n + 1) h : S13312x128.Idx → EReal)
      = fun y => (outsAt1 V c n (Nat.lt_of_succ_lt h) y : EReal) + addend V c (n + 1) y := by
  funext y
  obtain ⟨a, b, rfl⟩ : ∃ (a : Fin 13312) (b : Fin 128), y = ix2 a b := ⟨y 0, y 1, eq_ix2 y⟩
  rw [outsAt1_B V c ⟨n + 1, h⟩ hne]
  refine (out_B c (grid1.coords ⟨n + 1, h⟩) (ms1_0 ⟨n + 1, h⟩) (hs1_0 ⟨n + 1, h⟩) (ms1_1 ⟨n + 1, h⟩) (hs1_1 ⟨n + 1, h⟩)
    (ms1_2 ⟨n + 1, h⟩) (hs1_2 ⟨n + 1, h⟩) (fun hc => hne ((hcond1_0 ⟨n + 1, h⟩).mp hc)) (iblk1 V c 0 ⟨n + 1, h⟩) (iblk1 V c 1 ⟨n + 1, h⟩)
    (outsAt1 V c (n + 1 - 1) (Nat.lt_of_le_of_lt (Nat.sub_le _ _) h)) a b).trans ?_
  refine congrArg₂ (· + ·) rfl ?_
  unfold addend
  rw [dif_pos h, (idx_facts ⟨n + 1, h⟩).2.2.2.2.2.2]

/-- AT THE POINT THAT WRITES A GROUP'S BLOCK BACK the block holds the sum of the group's 147 addends. -/
theorem outsAt_flush (c : Dev nD) (t : Fin cfg1.N) (ht : t.val % 147 = 146) (y : S13312x128.Idx) :
    (outsAt1 V c t.val t.isLt y : EReal) = 0 + ∑ s ∈ Finset.range (146 + 1), addend V c (147 * (t.val / 147) + s) y := by
  have h' : 147 * (t.val / 147) + t.val % 147 < cfg1.N := by rw [Nat.div_add_mod]; exact t.isLt
  have e := Pipeline.eq_accAt_of_mod (N := cfg1.N) (fun n h => (outsAt1 V c n h : S13312x128.Idx → EReal)) 147
    (fun n _ y => 0 + addend V c n y) (fun n _ acc y => acc y + addend V c n y)
    (fun n h h0 => outsAt_reset V c n h h0) (fun n h hne => outsAt_step V c n h hne) (by decide) t.val t.isLt h'
  refine (congrFun e y).trans ?_
  refine (Pipeline.accAt_add_apply (N := cfg1.N) (fun n _ y => 0 + addend V c n y) (fun n _ acc y => acc y + addend V c n y)
    (fun _ => (0 : EReal)) (fun n y => addend V c n y) (147 * (t.val / 147)) 146 (fun _ _ => rfl) (fun _ _ _ _ _ _ => rfl)
    (t.val % 147) (by omega) h' y).trans ?_
  rw [ht]

/-! ## The result array

The 147 blocks of 4096 list positions make up the 602112 positions of the padded list, so a group's 147 addends sum
to the whole list's one-hot sum for each node of the group; group `g`'s block is written back to nodes
`13312 g … 13312 g + 13311` of the 53248-node result, and the four groups' blocks cover it. -/

theorem node_lt (q : ℕ) (hq : q < 4) (a : Fin 13312) : 13312 * q + a.val < 53248 := by
  have := a.isLt; omega

/-- A group's 147 addends at a row sum to the node's whole sum over the list. -/
theorem fold_sum (c : Dev nD) (q : ℕ) (hq : q < 4) (a : Fin 13312) (b : Fin 128) :
    ∑ s ∈ Finset.range (146 + 1), addend V c (147 * q + s) (ix2 a b)
      = Cert.Spec.scatterRows (V c main_v4) (V c main_v7_0) (ix2 (⟨13312 * q + a.val, node_lt q hq a⟩ : Fin 53248) b) := by
  have hN : cfg1.N = 588 := N_1
  unfold Cert.Spec.scatterRows
  rw [← Fin.sum_univ_eq_sum_range (fun s => addend V c (147 * q + s) (ix2 a b)) (146 + 1)]
  refine Eq.trans ?_ (Cert.Lib.BlockSum.sum_blocks 147 4096 (fun k : Fin 602112 =>
    Cert.Spec.hot (BitVec.ofNat 32 (13312 * q + a.val)) (V c main_v4 (ix2 (0 : Fin 1) k)) * V c main_v7_0 (ix2 k b)))
  refine Finset.sum_congr rfl fun s _ => ?_
  have hs : s.val < 147 := s.isLt
  have hlt : 147 * q + s.val < cfg1.N := by rw [hN]; omega
  unfold addend hotRow
  rw [dif_pos hlt]
  refine Finset.sum_congr rfl fun j _ => ?_
  rw [idxBlk_at, gatBlk_at]
  have hj : j.val < 4096 := j.isLt
  have ePos : (⟨4096 * ((⟨147 * q + s.val, hlt⟩ : Fin cfg1.N).val % 147) + j.val, pos_lt ⟨147 * q + s.val, hlt⟩ j⟩ : Fin 602112)
      = ⟨4096 * s.val + j.val, Cert.Lib.BlockSum.block_lt s j⟩ := Fin.ext (by
    show 4096 * ((147 * q + s.val) % 147) + j.val = 4096 * s.val + j.val
    omega)
  have eNode : 13312 * ((147 * q + s.val) / 147) + a.val = 13312 * q + a.val := by omega
  rw [ePos]
  show Cert.Spec.hot (BitVec.ofNat 32 (13312 * ((147 * q + s.val) / 147) + a.val)) _ * _ = _
  rw [eNode]

/-- The same at any index of the block, by its coordinates. -/
theorem fold_sum_idx (c : Dev nD) (q : ℕ) (hq : q < 4) (y : S13312x128.Idx) :
    ∑ s ∈ Finset.range (146 + 1), addend V c (147 * q + s) y
      = Cert.Spec.scatterRows (V c main_v4) (V c main_v7_0)
          (ix2 (⟨13312 * q + (y 0).val, node_lt q hq (y 0)⟩ : Fin 53248) (⟨(y 1).val, idx2_lt1 y⟩ : Fin 128)) := by
  obtain ⟨a, b, rfl⟩ : ∃ (a : Fin 13312) (b : Fin 128), y = ix2 a b := ⟨y 0, y 1, eq_ix2 y⟩
  exact fold_sum V c q hq a b

/-- A function of the result array read through the block of point `t`, at an index of the block: the function at
    the index's place in the array. -/
theorem read_blk (t : Fin cfg1.N) (G : S53248x128.Idx → EReal) (y : ((cfg1.win 2).xblock (grid1.coords t)).Idx) :
    ((cfg1.win 2).blk t).view.read (Elt Ideal) G y = G (((cfg1.win 2).blk t).view.emb y) := rfl

/-- WHAT A GROUP'S LAST POINT WRITES BACK is the group's block of the whole list's one-hot sums. -/
theorem flushed_eq (c : Dev nD) (t : Fin cfg1.N) (hf : (cfg1.win 2).flush t = true) :
    (dat1 (F := Ideal) V c).flushed 2 t
      = ((cfg1.win 2).blk t).view.read (Elt Ideal) (Cert.Spec.scatterRows (V c main_v4) (V c main_v7_0)) := by
  have ht : t.val % 147 = 146 := (flush1_2 t).mp hf
  have hN : t.val < 588 := lt_of_lt_of_eq t.isLt (show cfg1.N = 588 from N_1)
  show (cfg1.win 2).cut (grid1.coords t) ((dat1 V c).after 2 t) = _
  rw [after1_2]
  funext y
  refine Eq.trans (b := (outsAt1 V c t.val t.isLt y : EReal)) rfl ?_
  refine Eq.trans ?_ (read_blk t (Cert.Spec.scatterRows (V c main_v4) (V c main_v7_0)) y).symm
  refine (outsAt_flush V c t ht y).trans ?_
  rw [zero_add]
  refine (fold_sum_idx V c (t.val / 147) (by omega) y).trans ?_
  refine congrArg (Cert.Spec.scatterRows (V c main_v4) (V c main_v7_0)) ?_
  funext ax; apply Fin.ext
  match ax with
  | ⟨0, _⟩ =>
    show 13312 * (t.val / 147) + (y 0).val = win1_2.index t (0 : Fin 2) * 13312 + 1 * (y 0).val
    rw [(idx_facts t).2.2.2.2.1]; omega
  | ⟨1, _⟩ =>
    show (y 1).val = win1_2.index t (1 : Fin 2) * 128 + 1 * (y 1).val
    rw [(idx_facts t).2.2.2.2.2.1]; omega

/-- Node `n` lies in the block of group `n / 13312`, which that group's last point writes back. -/
theorem cover (i : S53248x128.Idx) :
    ∃ t : Fin cfg1.N, (cfg1.win 2).flush t = true ∧ i ∈ ((cfg1.win 2).blk t).view.set := by
  have hRow : (i 0).val < 53248 := idx2_lt0 i
  have hCol : (i 1).val < 128 := idx2_lt1 i
  have hN : cfg1.N = 588 := N_1
  obtain ⟨t, htv⟩ : ∃ t : Fin cfg1.N, t.val = 147 * ((i 0).val / 13312) + 146 :=
    ⟨⟨147 * ((i 0).val / 13312) + 146, by rw [hN]; omega⟩, rfl⟩
  refine ⟨t, (flush1_2 t).mpr (by rw [htv]; omega), ?_⟩
  show i ∈ ((View.whole main_v8).slice (win1_2.rect t)).set
  rw [View.set_slice_whole, Rect.mem_set_unit]
  obtain ⟨-, -, -, -, eRowIdx, eColIdx, -⟩ := idx_facts t
  intro ax
  match ax with
  | ⟨0, _⟩ =>
    show win1_2.index t (0 : Fin 2) * 13312 ≤ (i 0).val ∧ (i 0).val < win1_2.index t (0 : Fin 2) * 13312 + 13312
    rw [eRowIdx, htv]; omega
  | ⟨1, _⟩ =>
    show win1_2.index t (1 : Fin 2) * 128 ≤ (i 1).val ∧ (i 1).val < win1_2.index t (1 : Fin 2) * 128 + 128
    rw [eColIdx]; omega

end Steps

theorem arr1_2 (c : Dev nD) :
    (dat1 (F := Ideal) V c).arrAt 2 cfg1.N = Cert.Spec.scatterRows (V c main_v4) (V c main_v7_0) :=
  (dat1 (F := Ideal) V c).arrAt_eq_of_cover 2 (Cert.Spec.scatterRows (V c main_v4) (V c main_v7_0))
    (flushed_eq V c) cover

end Cert.KernelIdeal.ScatterValue1

end
-- ==== Proof.Chain.lean ====
/-
  The kernel's two result arrays as functions of its arguments.

  Walking back from the last boundary: a result is the first 50000 rows of what the accumulating region leaves in its
  53248-row array; that region accumulates, at the padded scatter index, the rows the selecting region left; the
  selecting region selects, at the padded gather index, rows of the zero-padded table; and the padded index rows and the
  padded table are what the host operations before the first region make of the arguments.  Composed, each result is
  `Spec.kernelSide` of the table and the two index lists — with the lists' roles swapped between the two results.
-/
import proofs.«407194_j57183194579314_3_alg».proof.Proof.Host
import proofs.«407194_j57183194579314_3_alg».proof.Proof.Gather
import proofs.«407194_j57183194579314_3_alg».proof.Proof.Scatter1
import proofs.«407194_j57183194579314_3_alg».proof.Proof.Scatter2

noncomputable section

open Idealize.ShloMosaic Idealize.ShloMosaic.TcCoe Idealize.SL.Sem

namespace Cert.KernelIdeal.Chain

open Cert.KernelIdeal Cert.KernelIdeal.Gen

variable (m : (ℓ : Loc nD τ sig) → Buf (Elt Ideal) ℓ) (ρ : Dev nD → PrngReg)

/-- The first result: rows of the table selected by the first index list, accumulated at the second. -/
theorem W7_v9_eq (c : Dev nD) : W7 (F := Ideal) m ρ c (Proc.devRef .tc main_v9)
    = Cert.Spec.kernelSide (m ((c : Thread nD τ).loc main_arg0)) (m ((c : Thread nD τ).loc main_arg1)) (m ((c : Thread nD τ).loc main_arg2)) := by
  rw [HostValue.W7_v9, HostValue.W4_v8, ScatterValue1.arr1_2 (V3 m ρ) c, HostValue.V3_v4, HostValue.V3_v7_0,
    GatherValue.arr0_3 (V2 m ρ) c, HostValue.V2_v3, HostValue.V2_v4, HostValue.V2_v6]
  rfl

/-- The second result: rows of the table selected by the second index list, accumulated at the first. -/
theorem W7_v11_eq (c : Dev nD) : W7 (F := Ideal) m ρ c (Proc.devRef .tc main_v11)
    = Cert.Spec.kernelSide (m ((c : Thread nD τ).loc main_arg0)) (m ((c : Thread nD τ).loc main_arg2)) (m ((c : Thread nD τ).loc main_arg1)) := by
  rw [HostValue.W7_v11, HostValue.W6_v10, ScatterValue2.arr2_2 (V5 m ρ) c, HostValue.V5_v3, HostValue.V5_v7_1,
    GatherValue.arr0_4 (V2 m ρ) c, HostValue.V2_v3, HostValue.V2_v4, HostValue.V2_v6]
  rfl

end Cert.KernelIdeal.Chain

end
-- ==== Proof.Ref.lean ====
import proofs.«407194_j57183194579314_3_alg».proof.Proof.Spec
import proofs.«407194_j57183194579314_3_alg».proof.Proof.Gen.ReferenceIdeal.Run
import proofs.«407194_j57183194579314_3_alg».proof.Proof.Gen.ReferenceIdeal.Read
import Idealize.ShloMosaic.Lib.StableHlo.Predicate
import Idealize.ShloMosaic.PureOps.Ideal.Laws

noncomputable section

open Idealize.ShloMosaic Idealize.ShloMosaic.TcCoe Idealize.SL.Sem

namespace Cert.ReferenceIdeal.RefValue

open Cert.ReferenceIdeal Cert.ReferenceIdeal.Gen

/-! ## Row accumulation and row selection, read at an entry

The reference accumulates into a zero [N, D] array, at the rows an [E, 1] column of index words names, the rows of an
[E, D] array of updates, which are themselves rows of an [N, D] table selected by a second column of index words. The
lemmas below read both operations at one entry over arbitrary extents N, D, E: an update entry (e, q) lands at
(word of row e read signed, q), so the accumulated sum at (n, p) collapses to a sum over the rows e whose word is n; and
the selected entry (e, p) is the table's entry (word of row e read signed and clamped, p). -/

section Helpers

open Idealize.ShloMosaic.ValueIdx Idealize.ShloMosaic.StableHlo

section RowScatter
variable {N D E w : Nat}

/-- Two rank-2 indices built from coordinates agree exactly when their coordinates do. -/
theorem ix2_inj {a a' : Fin N} {b b' : Fin D} : ix2 a b = ix2 a' b' ↔ a = a' ∧ b = b' := by
  constructor
  · intro h
    exact ⟨congrFun h 0, congrFun h 1⟩
  · rintro ⟨rfl, rfl⟩; rfl

/-- When the updates' only window axis is axis 1, their only scatter axis is axis 0. -/
theorem scatterAxes_eq0 (d : ScatterDims ⟨2, ![N, D]⟩ ⟨2, ![E, 1]⟩ ⟨2, ![E, D]⟩) (huw : d.updateWindowDims = [1]) :
    ∀ a ∈ d.uScatter, a = 0 := by
  intro a ha
  simp only [ScatterDims.uScatter, Shape.kept, huw, List.mem_filter] at ha
  match a, ha with
  | ⟨0, _⟩, _ => rfl
  | ⟨1, _⟩, h => exact absurd (List.mem_singleton.mpr rfl) (of_decide_eq_true h.2)

/-- On the operand's row axis the window of update entry (e, q) starts at the index word of row e of the
    index column, read signed. -/
theorem scatter_start0 (d : ScatterDims ⟨2, ![N, D]⟩ ⟨2, ![E, 1]⟩ ⟨2, ![E, D]⟩) (huw : d.updateWindowDims = [1])
    (hsd : d.scatterDimsToOperandDims = [0]) (hivd : d.indexVectorDim = 1)
    (idx : IVec ⟨2, ![E, 1]⟩ w) (e : Fin E) (q : Fin D) :
    d.start (ix2 e q) idx 0 = (idx (ix2 e (0 : Fin 1))).toInt := by
  have hm : (0 : Fin 2) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    rw [scatterAxes_eq0 d huw _ (List.getElem_mem _)]
    rfl
  | ⟨1, _⟩ =>
    unfold ScatterDims.siIdx
    rw [dif_pos (by rw [hivd])]
    apply Fin.ext
    show List.idxOf (0 : Fin 2) d.scatterDimsToOperandDims = 0
    rw [hsd]; simp

/-- The two axes of a rank-2 shape are different. -/
theorem fin2_one_ne_zero : (1 : Fin 2) ≠ 0 := by decide

/-- On the operand's feature axis, which the scatter indices do not address, every window starts at 0. -/
theorem scatter_start1 (d : ScatterDims ⟨2, ![N, D]⟩ ⟨2, ![E, 1]⟩ ⟨2, ![E, D]⟩)
    (hsd : d.scatterDimsToOperandDims = [0]) (idx : IVec ⟨2, ![E, 1]⟩ w) (j : (⟨2, ![E, D]⟩ : Shape).Idx) :
    d.start j idx 1 = 0 := by
  unfold ScatterDims.start
  rw [dif_neg (by rw [hsd]; exact fun h => fin2_one_ne_zero (List.mem_singleton.mp h))]

/-- The row axis is the inserted one: it is not among the operand's window axes. -/
theorem scatter_zero_not_kept (d : ScatterDims ⟨2, ![N, D]⟩ ⟨2, ![E, 1]⟩ ⟨2, ![E, D]⟩) (hiw : d.insertedWindowDims = [0]) :
    (0 : Fin 2) ∉ d.sKept := by
  simp only [ScatterDims.sKept, Shape.kept, hiw, List.mem_filter]
  exact fun h => (of_decide_eq_true h.2) (List.mem_singleton.mpr rfl)

/-- The feature axis is a window axis of the operand. -/
theorem scatter_one_kept (d : ScatterDims ⟨2, ![N, D]⟩ ⟨2, ![E, 1]⟩ ⟨2, ![E, D]⟩) (hiw : d.insertedWindowDims = [0]) :
    (1 : Fin 2) ∈ d.sKept := by
  simp only [ScatterDims.sKept, Shape.kept, hiw, List.mem_filter]
  exact ⟨List.mem_finRange _, decide_eq_true (fun h => fin2_one_ne_zero (List.mem_singleton.mp h))⟩

/-- The window coordinate on the row axis is 0: a window is one row high. -/
theorem scatter_window0 (d : ScatterDims ⟨2, ![N, D]⟩ ⟨2, ![E, 1]⟩ ⟨2, ![E, D]⟩) (hiw : d.insertedWindowDims = [0])
    (j : (⟨2, ![E, D]⟩ : Shape).Idx) : d.window j 0 = 0 := by
  unfold ScatterDims.window
  rw [dif_neg (scatter_zero_not_kept d hiw)]

/-- The window coordinate of update entry (e, q) on the feature axis is q. -/
theorem scatter_window1 (d : ScatterDims ⟨2, ![N, D]⟩ ⟨2, ![E, 1]⟩ ⟨2, ![E, D]⟩) (huw : d.updateWindowDims = [1])
    (hiw : d.insertedWindowDims = [0]) (e : Fin E) (q : Fin D) : d.window (ix2 e q) 1 = q.val := by
  unfold ScatterDims.window
  rw [dif_pos (scatter_one_kept d hiw)]
  have hall : ∀ a ∈ d.updateWindowDims, a = 1 := by rw [huw]; intro a ha; exact List.mem_singleton.mp ha
  rw [hall _ (List.getElem_mem _)]
  rfl

/-- Every update row whose index word, read signed, names a row of the operand lands in that row, feature for feature. -/
theorem scatter_resultIdx (d : ScatterDims ⟨2, ![N, D]⟩ ⟨2, ![E, 1]⟩ ⟨2, ![E, D]⟩) (huw : d.updateWindowDims = [1])
    (hiw : d.insertedWindowDims = [0]) (hsd : d.scatterDimsToOperandDims = [0]) (hivd : d.indexVectorDim = 1)
    (idx : IVec ⟨2, ![E, 1]⟩ w) (e : Fin E) (q : Fin D) (r : Fin N) (hr : (idx (ix2 e (0 : Fin 1))).toInt = r.val) :
    d.resultIdx? (ix2 e q) idx = some (ix2 r q) := by
  have h0 : d.start (ix2 e q) idx 0 + d.window (ix2 e q) 0 = (r.val : Int) := by
    rw [scatter_start0 d huw hsd hivd, scatter_window0 d hiw, hr]; simp
  have h1 : d.start (ix2 e q) idx 1 + d.window (ix2 e q) 1 = (q.val : Int) := by
    rw [scatter_start1 d hsd, scatter_window1 d huw hiw]; simp
  unfold ScatterDims.resultIdx?
  have hr' := r.isLt
  have hq' := q.isLt
  have h : ∀ a, 0 ≤ d.start (ix2 e q) idx a + d.window (ix2 e q) a ∧
      d.start (ix2 e q) idx a + d.window (ix2 e q) a < (⟨2, ![N, D]⟩ : Shape).size a := by
    intro a
    match a with
    | ⟨0, _⟩ =>
      show 0 ≤ d.start (ix2 e q) idx 0 + d.window (ix2 e q) 0 ∧ d.start (ix2 e q) idx 0 + d.window (ix2 e q) 0 < (N : Int)
      rw [h0]; exact ⟨Int.natCast_nonneg _, by exact_mod_cast hr'⟩
    | ⟨1, _⟩ =>
      show 0 ≤ d.start (ix2 e q) idx 1 + d.window (ix2 e q) 1 ∧ d.start (ix2 e q) idx 1 + d.window (ix2 e q) 1 < (D : Int)
      rw [h1]; exact ⟨Int.natCast_nonneg _, by exact_mod_cast hq'⟩
  rw [dif_pos h]
  congr 1
  funext a
  match a with
  | ⟨0, _⟩ =>
    apply Fin.ext
    show (d.start (ix2 e q) idx 0 + d.window (ix2 e q) 0).toNat = r.val
    rw [h0]; simp
  | ⟨1, _⟩ =>
    apply Fin.ext
    show (d.start (ix2 e q) idx 1 + d.window (ix2 e q) 1).toNat = q.val
    rw [h1]; simp

/-- Row accumulation at an entry: when every index word, read signed, names a row, the entry of the operand plus the
    sum over the update rows whose word names this row of their entry in the same feature column. -/
theorem hostScatterAdd_rows (d : ScatterDims ⟨2, ![N, D]⟩ ⟨2, ![E, 1]⟩ ⟨2, ![E, D]⟩) (huw : d.updateWindowDims = [1])
    (hiw : d.insertedWindowDims = [0]) (hsd : d.scatterDimsToOperandDims = [0]) (hivd : d.indexVectorDim = 1)
    (z : (⟨2, ![N, D]⟩ : Shape).Idx → EReal) (idx : IVec ⟨2, ![E, 1]⟩ w) (upd : (⟨2, ![E, D]⟩ : Shape).Idx → EReal)
    (row : Fin E → Fin N) (hrow : ∀ e, (idx (ix2 e (0 : Fin 1))).toInt = (row e).val) (n : Fin N) (p : Fin D) :
    Ideal.hostScatterAdd d z idx upd (ix2 n p) = z (ix2 n p) + ∑ e : Fin E, if row e = n then upd (ix2 e p) else 0 := by
  unfold Ideal.hostScatterAdd
  congr 1
  rw [Finset.sum_filter, sum_idx2]
  refine Finset.sum_congr rfl (fun e _ => ?_)
  have hres : ∀ q : Fin D, d.resultIdx? (ix2 e q) idx = some (ix2 n p) ↔ row e = n ∧ q = p := by
    intro q
    rw [scatter_resultIdx d huw hiw hsd hivd idx e q (row e) (hrow e)]
    exact ⟨fun h => ix2_inj.1 (Option.some.inj h), fun h => congrArg some (ix2_inj.2 h)⟩
  by_cases hen : row e = n
  · rw [if_pos hen, Finset.sum_eq_single p]
    · rw [if_pos ((hres p).2 ⟨hen, rfl⟩)]
    · intro q _ hq
      rw [if_neg (fun h => hq ((hres q).1 h).2)]
    · intro h; exact absurd (Finset.mem_univ _) h
  · rw [if_neg hen]
    refine Finset.sum_eq_zero (fun q _ => ?_)
    rw [if_neg (fun h => hen ((hres q).1 h).1)]

end RowScatter

section RowGather
variable {α : Type} {N D E w : Nat}

/-- When the result's only offset axis is axis 1, its only batch axis is axis 0. -/
theorem gather_batchAxes_eq0 (d : GatherDims ⟨2, ![N, D]⟩ ⟨2, ![E, 1]⟩ ⟨2, ![E, D]⟩) (hoff : d.offsetDims = [1]) :
    ∀ a ∈ d.batchDims, a = 0 := by
  intro a ha
  simp only [GatherDims.batchDims, Shape.kept, hoff, List.mem_filter] at ha
  match a, ha with
  | ⟨0, _⟩, _ => rfl
  | ⟨1, _⟩, h => exact absurd (List.mem_singleton.mpr rfl) (of_decide_eq_true h.2)

/-- Row selection at an entry: the table's entry in the row the start index word names (read signed and clamped into the
    table) and the same feature column. -/
theorem gather_rows (d : GatherDims ⟨2, ![N, D]⟩ ⟨2, ![E, 1]⟩ ⟨2, ![E, D]⟩) (hoff : d.offsetDims = [1])
    (hcoll : d.collapsedSliceDims = [0]) (hob : d.operandBatchingDims = []) (hsim : d.startIndexMap = [0])
    (hivd : d.indexVectorDim = 1) (x : (⟨2, ![N, D]⟩ : Shape).Idx → α) (idx : IVec ⟨2, ![E, 1]⟩ w) (e : Fin E) (p : Fin D)
    (r : Fin N) (hr : min (idx (ix2 e (0 : Fin 1))).toInt.toNat (N - 1) = r.val) :
    Host.gather d x idx (ix2 e p) = x (ix2 r p) := by
  unfold Host.gather
  congr 1
  funext a
  have hb : ∀ a : Fin 2, a ∉ d.operandBatchingDims := by intro a; rw [hob]; exact List.not_mem_nil
  match a with
  | ⟨0, _⟩ =>
    apply Fin.ext
    show d.start (ix2 e p) idx 0 + d.batchCoord (ix2 e p) 0 + d.offCoord (ix2 e p) 0 = r.val
    have hk : (0 : Fin 2) ∉ d.sKept := by
      rw [GatherDims.mem_sKept, hcoll]; exact fun h => h.1 (List.mem_singleton.mpr rfl)
    have hm : (0 : Fin 2) ∈ d.startIndexMap := by rw [hsim]; exact List.mem_singleton.mpr rfl
    have hsl : d.sliceSizes 0 = 1 := d.slice_collapsed 0 (by rw [hcoll]; exact List.mem_singleton.mpr rfl)
    have hsi : d.siIdx (ix2 e p) ⟨List.idxOf (0 : Fin 2) d.startIndexMap, List.idxOf_lt_length_iff.2 hm⟩
        = ix2 e (0 : Fin 1) := by
      funext b
      match b with
      | ⟨0, _⟩ =>
        unfold GatherDims.siIdx
        rw [dif_neg (by rw [hivd]; simp)]
        unfold GatherDims.siCoord
        apply Fin.ext
        simp only [Fin.val_cast]
        rw [gather_batchAxes_eq0 d hoff _ (List.getElem_mem _)]
        rfl
      | ⟨1, _⟩ =>
        unfold GatherDims.siIdx
        rw [dif_pos (by rw [hivd])]
        apply Fin.ext
        show List.idxOf (0 : Fin 2) d.startIndexMap = 0
        rw [hsim]; simp
    rw [GatherDims.batchCoord_eq_zero _ _ _ (hb 0), GatherDims.offCoord_eq_zero _ _ _ hk, Nat.add_zero]
    unfold GatherDims.start
    rw [dif_pos hm, hsi, hsl]
    exact hr
  | ⟨1, _⟩ =>
    apply Fin.ext
    show d.start (ix2 e p) idx 1 + d.batchCoord (ix2 e p) 1 + d.offCoord (ix2 e p) 1 = p.val
    have hm : (1 : Fin 2) ∉ d.startIndexMap := by
      rw [hsim]; exact fun h => fin2_one_ne_zero (List.mem_singleton.mp h)
    have hk : (1 : Fin 2) ∈ d.sKept := by
      rw [GatherDims.mem_sKept, hcoll, hob]
      exact ⟨fun h => fin2_one_ne_zero (List.mem_singleton.mp h), List.not_mem_nil⟩
    have hall : ∀ a ∈ d.offsetDims, a = 1 := by rw [hoff]; intro a ha; exact List.mem_singleton.mp ha
    rw [GatherDims.batchCoord_eq_zero _ _ _ (hb 1), Nat.add_zero]
    unfold GatherDims.start
    rw [dif_neg hm, Nat.zero_add]
    unfold GatherDims.offCoord
    rw [dif_pos hk, hall _ (List.getElem_mem _)]
    rfl

end RowGather

/-! ## The reference's term -/

/-- A vector laid out as a column reads, in row e, the vector at e. -/
theorem col_apply {α : Type} {n : Nat} (h : (⟨1, ![n]⟩ : Shape).BroadcastsInDim ⟨2, ![n, 1]⟩ ![0])
    (v : (⟨1, ![n]⟩ : Shape).Idx → α) (e : Fin n) (hn : n ≠ 1) :
    broadcastInDim ⟨2, ![n, 1]⟩ ![0] h v (ix2 e (0 : Fin 1)) = v (ix1 e) := by
  refine broadcastInDim_apply _ h v _ (ix1 e) (fun a => ?_)
  match a with
  | ⟨0, _⟩ => show e.val = if n = 1 then 0 else e.val; rw [if_neg hn]

/-- A word that is non-negative read signed is not below zero, so the wrap of negative indices leaves it as it is. -/
theorem wrapped_apply (gi : IVec S600000 32) (e : Fin 600000) (hlt : (gi (ix1 e)).toNat < 2 ^ 31) :
    select (cmpi .slt gi (broadcastInDim S600000 ![] bcast_S_S600000 (constantI S_ 32 0#32)))
      (addi gi (broadcastInDim S600000 ![] bcast_S_S600000 (constantI S_ 32 50000#32))) gi (ix1 e) = gi (ix1 e) := by
  show Scalar.select (IntOp.cmpi .slt (gi (ix1 e)) 0#32) _ (gi (ix1 e)) = gi (ix1 e)
  have hc : ¬ IntOp.cmpi .slt (gi (ix1 e)) 0#32 = 1#1 := by
    rw [Predicate.slt_iff_toNat hlt (by decide)]
    simp
  exact if_neg hc

/-- A node number as a word equals an in-range index word exactly when the word's value is the node number. -/
theorem word_eq_iff (n : Fin 50000) (b : BitVec 32) (hb : b.toNat < 50000) :
    BitVec.ofNat 32 n.val = b ↔ (⟨b.toNat, hb⟩ : Fin 50000) = n := by
  have hn := n.isLt
  constructor
  · intro h
    apply Fin.ext
    show b.toNat = n.val
    rw [← h, BitVec.toNat_ofNat]; omega
  · intro h
    apply BitVec.eq_of_toNat_eq
    rw [BitVec.toNat_ofNat, ← h]
    show b.toNat % 2 ^ 32 = b.toNat
    omega

/-- The composed term is the segment sum. Read at node n and feature p: the zero array contributes nothing; the update row
    of edge e lands in the row its scatter word names (in range, so read signed it is the word's value), so the
    accumulated sum over all update entries collapses to a sum over the edges, each weighted by whether its scatter
    word is n; and the update row of edge e is the table's row named by its gather word, which the wrap of negative
    words leaves alone because an in-range word is non-negative read signed. -/
theorem segTerm_aux (x : FVec Ideal S50000x128 .f32) (gi si : IVec S600000 32)
    (hg : Cert.Spec.InRange gi) (hs : Cert.Spec.InRange si) :
    Host.scatterAdd scatter_S50000x128_S600000x1_S600000x128_1_0_0_1
      (broadcastInDim S50000x128 ![] bcast_S_S50000x128 (constant (F := Ideal) S_ .f32 0x00000000#32))
      (broadcastInDim S600000x1 ![0] bcast_S600000_S600000x1_0 si)
      (Host.gather gather_S50000x128_S600000x1_S600000x128_1_0_n_n_0_1_1128 x
        (broadcastInDim S600000x1 ![0] bcast_S600000_S600000x1_0
          (select (cmpi .slt gi (broadcastInDim S600000 ![] bcast_S_S600000 (constantI S_ 32 0#32)))
            (addi gi (broadcastInDim S600000 ![] bcast_S_S600000 (constantI S_ 32 50000#32))) gi)))
      = Cert.Spec.refSide x gi si := by
  funext i
  obtain ⟨n, p, rfl⟩ : ∃ (n : Fin 50000) (p : Fin 128), i = ix2 n p := ⟨i 0, i 1, eq_ix2 i⟩
  have hsI : ∀ e : Fin 600000,
      (broadcastInDim S600000x1 ![0] bcast_S600000_S600000x1_0 si (ix2 e (0 : Fin 1))).toInt
        = ((⟨(si (ix1 e)).toNat, hs e⟩ : Fin 50000)).val := by
    intro e
    rw [col_apply bcast_S600000_S600000x1_0 si e (by decide)]
    exact Predicate.toInt_eq_toNat_of_lt (by have := hs e; omega)
  show Ideal.hostScatterAdd scatter_S50000x128_S600000x1_S600000x128_1_0_0_1 _ _ _ (ix2 n p) = _
  rw [hostScatterAdd_rows _ rfl rfl rfl rfl _ _ _ (fun e => ⟨(si (ix1 e)).toNat, hs e⟩) hsI n p]
  have hz : broadcastInDim S50000x128 ![] bcast_S_S50000x128 (constant (F := Ideal) S_ .f32 0x00000000#32) (ix2 n p) = 0 := by
    show Ideal.ofBits .f32 0x00000000#32 = 0
    exact Ideal.ofBits_zero_f32
  rw [hz, zero_add]
  show _ = ∑ e : Fin 600000, Cert.Spec.hot (BitVec.ofNat 32 n.val) (si (ix1 e)) *
    (if h : (gi (ix1 e)).toNat < 50000 then x (ix2 ⟨(gi (ix1 e)).toNat, h⟩ p) else 0)
  refine Finset.sum_congr rfl (fun e _ => ?_)
  have hge := hg e
  have hG : broadcastInDim S600000x1 ![0] bcast_S600000_S600000x1_0
      (select (cmpi .slt gi (broadcastInDim S600000 ![] bcast_S_S600000 (constantI S_ 32 0#32)))
        (addi gi (broadcastInDim S600000 ![] bcast_S_S600000 (constantI S_ 32 50000#32))) gi) (ix2 e (0 : Fin 1))
      = gi (ix1 e) := by
    rw [col_apply bcast_S600000_S600000x1_0 _ e (by decide)]
    exact wrapped_apply gi e (by omega)
  have hrg : min (broadcastInDim S600000x1 ![0] bcast_S600000_S600000x1_0
      (select (cmpi .slt gi (broadcastInDim S600000 ![] bcast_S_S600000 (constantI S_ 32 0#32)))
        (addi gi (broadcastInDim S600000 ![] bcast_S_S600000 (constantI S_ 32 50000#32))) gi)
        (ix2 e (0 : Fin 1))).toInt.toNat (50000 - 1) = ((⟨(gi (ix1 e)).toNat, hge⟩ : Fin 50000)).val := by
    rw [hG, Predicate.toInt_eq_toNat_of_lt (by omega), Int.toNat_natCast]
    show min (gi (ix1 e)).toNat (50000 - 1) = (gi (ix1 e)).toNat
    omega
  rw [gather_rows _ rfl rfl rfl rfl rfl x _ e p ⟨(gi (ix1 e)).toNat, hge⟩ hrg, dif_pos hge]
  unfold Cert.Spec.hot
  by_cases hh : (⟨(si (ix1 e)).toNat, hs e⟩ : Fin 50000) = n
  · rw [if_pos hh, if_pos ((word_eq_iff n _ (hs e)).2 hh), one_mul]
  · rw [if_neg hh, if_neg (fun h => hh ((word_eq_iff n _ (hs e)).1 h)), zero_mul]

end Helpers

/-- The reference's term for one result: wrap a negative gather index by 50000, select the table's rows, and
    accumulate them into a zero array at the scatter index. -/
def segTerm (x : FVec Ideal S50000x128 .f32) (gi si : IVec S600000 32) : FVec Ideal S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 si)
    (Host.gather gather_S50000x128_S600000x1_S600000x128_1_0_n_n_0_1_1128 x
      (broadcastInDim S600000x1 ![0] bcast_S600000_S600000x1_0
        (select (cmpi .slt gi (broadcastInDim S600000 ![] bcast_S_S600000 (constantI S_ 32 0#32)))
          (addi gi (broadcastInDim S600000 ![] bcast_S_S600000 (constantI S_ 32 50000#32))) gi)))

theorem segTerm_eq (x : FVec Ideal S50000x128 .f32) (gi si : IVec S600000 32)
    (hg : Cert.Spec.InRange gi) (hs : Cert.Spec.InRange si) :
    segTerm x gi si = Cert.Spec.refSide x gi si := segTerm_aux x gi si hg hs

end Cert.ReferenceIdeal.RefValue

end
-- ==== Proof.PreDecode.lean ====
import proofs.«407194_j57183194579314_3_alg».proof.Proof.Spec
import proofs.«407194_j57183194579314_3_alg».proof.Defs
import proofs.«407194_j57183194579314_3_alg».proof.Proof.Gen.Pre_finite_inputs
import proofs.«407194_j57183194579314_3_alg».proof.Proof.Gen.KernelIdeal
import Idealize.ShloMosaic.Lib.ReduceAll
import Idealize.ShloMosaic.Lib.StableHlo.Predicate

noncomputable section

open Idealize.ShloMosaic Idealize.ShloMosaic.TcCoe Idealize.SL.Sem

namespace Cert.KernelIdeal.PreDecode

open Cert.KernelIdeal

/-- The rank-0 shape has exactly one index. -/
instance : Subsingleton Cert.Pre_finite_inputs.S_.Idx := ⟨fun a b => funext fun d => d.elim0⟩

/-- A 32-bit word that reads, signed, at least 0 and below 50000 reads, unsigned, below 50000: a word whose signed
    reading is not negative has its top bit clear, and then the two readings are the same number. -/
theorem toNat_lt_of_signed (w : BitVec 32) (h0 : IntOp.cmpi .sge w 0#32 = 1#1)
    (h1 : IntOp.cmpi .slt w 50000#32 = 1#1) : w.toNat < 50000 := by
  have hge : (0#32 : BitVec 32).sle w = true := (StableHlo.Predicate.ofBool_eq_one_iff _).1 h0
  have hlt : w.slt (50000#32 : BitVec 32) = true := (StableHlo.Predicate.ofBool_eq_one_iff _).1 h1
  have z0 : (0#32 : BitVec 32).toInt = 0 := by decide
  have z1 : (50000#32 : BitVec 32).toInt = 50000 := by decide
  simp only [BitVec.sle, BitVec.slt, decide_eq_true_eq, z0, z1] at hge hlt
  have hw := w.isLt
  rw [BitVec.toInt_eq_toNat_cond] at hge hlt
  split at hge <;> omega

theorem inRange_of_pre (m : (ℓ : Loc nD τ sig) → Buf (Elt Ideal) ℓ)
    (h : @Cert.Pre_KernelIdeal Cert.Pre_finite_inputs.Gen.facts m) (c : Dev nD) :
    Cert.Spec.InRange (m ((c : Thread nD τ).loc main_arg1)) ∧ Cert.Spec.InRange (m ((c : Thread nD τ).loc main_arg2)) := by
  -- the predicate's one word, on device c, is 1
  have e := congrFun (h c) ValueIdx.ix0
  unfold Cert.Pre_finite_inputs.fn Cert.Pre_finite_inputs.fn_part1 at e
  dsimp only at e
  -- it is (float conjunct and first index conjunct) and second index conjunct
  obtain ⟨e10, e16⟩ := IntOp.andi_eq_one.1 e
  obtain ⟨_, e9⟩ := IntOp.andi_eq_one.1 e10
  constructor
  · intro k
    -- an all-reduction by "and" that is 1 had a 1 at every position; at position k that 1 is the pair of compares
    have hk := Host.reduce_andi_all _ _ _ _ _ e9 (ValueIdx.ix1 k)
    obtain ⟨a, b⟩ := IntOp.andi_eq_one.1 hk
    exact toNat_lt_of_signed _ a b
  · intro k
    have hk := Host.reduce_andi_all _ _ _ _ _ e16 (ValueIdx.ix1 k)
    obtain ⟨a, b⟩ := IntOp.andi_eq_one.1 hk
    exact toNat_lt_of_signed _ a b

end Cert.KernelIdeal.PreDecode

end
-- ==== Proof.lean ====
/-
  Two message-passing sums over an edge list.  For 50000 nodes with 128 features each and 600000 edges (src e, dst e):
      h_in [n, d] = the sum over the edges e with dst e = n of h[src e, d],
      h_out[n, d] = the sum over the edges e with src e = n of h[dst e, d].
  The reference selects rows of h by one index list and accumulates them at the other.  The kernel does the same with
  ONE-HOT MATRICES: it pads the edge list to 602112 entries with the word 53248 and the table to 53248 rows with zeros,
  turns "idx = row" into a 0/1 matrix and multiplies — once to select rows, once (per result) to accumulate them — and
  cuts each 53248-row result back to 50000 rows.  A sum of 0/1 weights times values, exactly one weight being 1, is the
  selected value, and a sum over the padded positions adds only zeros: over the extended reals the two programs are one
  function of their arguments, provided every index word names a node (0 <= idx < 50000).  That range is part of the
  precondition: outside it the reference itself indexes its arrays out of range.

  The pieces: Spec (the mathematics), Algebra (the padded one-hot pipeline is the segment sum), Gather / Scatter1 /
  Scatter2 (what each of the three regions leaves in its result array, at any entry contents), Host (the host operations
  before, between and after the regions, and the walk between region boundaries), Chain (the kernel's two results as
  functions of the arguments), RunV (the kernel's run with its results named), Ref (the reference's term is the segment
  sum), PreDecode (the precondition gives the index range).  The word-level kernel needs only its frame; the idealization
  rewrote nothing, so `preserves` is trivial.
-/
import proofs.«407194_j57183194579314_3_alg».proof.Defs
import proofs.«407194_j57183194579314_3_alg».proof.Proof.Gen.Kernel
import proofs.«407194_j57183194579314_3_alg».proof.Proof.Gen.Kernel.Skeleton
import proofs.«407194_j57183194579314_3_alg».proof.Proof.Gen.Kernel.Loops
import proofs.«407194_j57183194579314_3_alg».proof.Proof.Gen.Kernel.Launch
import proofs.«407194_j57183194579314_3_alg».proof.Proof.Gen.Kernel.Points
import proofs.«407194_j57183194579314_3_alg».proof.Proof.Gen.Kernel.Frame
import proofs.«407194_j57183194579314_3_alg».proof.Proof.Gen.KernelIdeal
import proofs.«407194_j57183194579314_3_alg».proof.Proof.Gen.KernelIdeal.Skeleton
import proofs.«407194_j57183194579314_3_alg».proof.Proof.Gen.KernelIdeal.Loops
import proofs.«407194_j57183194579314_3_alg».proof.Proof.Gen.KernelIdeal.Launch
import proofs.«407194_j57183194579314_3_alg».proof.Proof.Gen.KernelIdeal.Points
import proofs.«407194_j57183194579314_3_alg».proof.Proof.Gen.KernelIdeal.Frame
import proofs.«407194_j57183194579314_3_alg».proof.Proof.Gen.ReferenceIdeal
import proofs.«407194_j57183194579314_3_alg».proof.Proof.Gen.ReferenceIdeal.Run
import proofs.«407194_j57183194579314_3_alg».proof.Proof.Gen.Pre_finite_inputs
import proofs.«407194_j57183194579314_3_alg».proof.Proof.Spec
import proofs.«407194_j57183194579314_3_alg».proof.Proof.Algebra
import proofs.«407194_j57183194579314_3_alg».proof.Proof.RunV
import proofs.«407194_j57183194579314_3_alg».proof.Proof.Chain
import proofs.«407194_j57183194579314_3_alg».proof.Proof.Ref
import proofs.«407194_j57183194579314_3_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with each result at the segment sum of the arguments: the kernel's padded one-hot pipeline by
    `Spec.kernelSide_eq_refSide`, the reference's term by `segTerm_eq`, both under the index range the precondition gives. -/
theorem algebraic : Cert.algebraic_KernelIdeal_ReferenceIdeal := by
  intro m ρ m' ρ' hpre hagree
  refine ⟨fun c => Cert.Spec.refSide (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    fun c => Cert.Spec.refSide (m ((c : Thread Cert.KernelIdeal.nD Cert.KernelIdeal.τ).loc Cert.KernelIdeal.main_arg0))
      (m ((c : Thread Cert.KernelIdeal.nD Cert.KernelIdeal.τ).loc Cert.KernelIdeal.main_arg2))
      (m ((c : Thread Cert.KernelIdeal.nD Cert.KernelIdeal.τ).loc Cert.KernelIdeal.main_arg1)), ?_, ?_⟩
  · refine (θ_run Cert.KernelIdeal.defs _ _).mono (fun r h c => ?_) (Cert.KernelIdeal.RunV.run (F := Ideal) m ρ)
    obtain ⟨h9, h11, ha0, ha1, ha2⟩ := h c
    obtain ⟨hr1, hr2⟩ := Cert.KernelIdeal.PreDecode.inRange_of_pre m hpre c
    exact ⟨h9.trans ((Cert.KernelIdeal.Chain.W7_v9_eq m ρ c).trans (Cert.Spec.kernelSide_eq_refSide _ _ _ hr1 hr2)),
      h11.trans ((Cert.KernelIdeal.Chain.W7_v11_eq m ρ c).trans (Cert.Spec.kernelSide_eq_refSide _ _ _ hr2 hr1)), ha0, ha1, ha2⟩
  · refine (θ_run Cert.ReferenceIdeal.defs _ _).mono (fun r h c => ?_) (Cert.ReferenceIdeal.Value.run (F := Ideal) m' ρ')
    obtain ⟨h9, h19, ha0, ha1, ha2⟩ := h c
    obtain ⟨hr1, hr2⟩ := Cert.KernelIdeal.PreDecode.inRange_of_pre m hpre c
    refine ⟨h9.trans ?_, h19.trans ?_, ha0, ha1, ha2⟩
    · rw [(hagree c).1, (hagree c).2.1, (hagree c).2.2]
      exact Cert.ReferenceIdeal.RefValue.segTerm_eq _ _ _ hr1 hr2
    · rw [(hagree c).1, (hagree c).2.1, (hagree c).2.2]
      exact Cert.ReferenceIdeal.RefValue.segTerm_eq _ _ _ hr2 hr1

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
